-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x64x64x64 : Shape := ⟨5, ![8, 32, 64, 64, 64]⟩
abbrev S32 : Shape := ⟨1, ![32]⟩
abbrev S_ : Shape := ⟨0, ![]⟩

class Facts : Prop where
  bcast_S_S8x32x64x64x64 : S_.BroadcastsInDim S8x32x64x64x64 (![] : Fin 0 → Fin S8x32x64x64x64.rank)
  reducesTo_S8x32x64x64x64_S_d0_1_2_3_4 : S8x32x64x64x64.ReducesTo [0, 1, 2, 3, 4] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S8x32x64x64x64 .f32) (main_arg1 : FVec F S32 .f32) (main_arg2 : FVec F S32 .f32) : IVec S_ 1 :=
  let main_v0 : FVec F S8x32x64x64x64 .f32 := Host.absf main_arg0
  let main_cst : FVec F S_ .f32 := constant S_ .f32 0x7F800000#32
  let main_v1 : FVec F S8x32x64x64x64 .f32 := broadcastInDim S8x32x64x64x64 ![] bcast_S_S8x32x64x64x64 main_cst
  let main_v2 : IVec S8x32x64x64x64 1 := cmpf .olt main_v0 main_v1
  let main_c : IVec S_ 1 := constantI S_ 1 1#1
  let main_v3 : IVec S_ 1 := (fun x v => Host.reduce IntOp.andi x v reducesTo_S8x32x64x64x64_S_d0_1_2_3_4 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S8x32x64x64x64 : Shape := ⟨5, ![8, 32, 64, 64, 64]⟩
abbrev S32 : Shape := ⟨1, ![32]⟩
abbrev S8x32x262144 : Shape := ⟨3, ![8, 32, 262144]⟩
abbrev S8x3 : Shape := ⟨2, ![8, 3]⟩
abbrev S8x32x4096 : Shape := ⟨3, ![8, 32, 4096]⟩
abbrev S8x1x4096 : Shape := ⟨3, ![8, 1, 4096]⟩
abbrev S8x1 : Shape := ⟨2, ![8, 1]⟩
abbrev S8x32 : Shape := ⟨2, ![8, 32]⟩
abbrev S8 : Shape := ⟨1, ![8]⟩
abbrev S_ : Shape := ⟨0, ![]⟩
abbrev S8x1x1 : Shape := ⟨3, ![8, 1, 1]⟩
abbrev S1x32x1 : Shape := ⟨3, ![1, 32, 1]⟩

abbrev nBuf : Space → Nat
  | .hbm => 50
  | .vmem => 11
  | .smem => 0
  | _ => 0

abbrev bufTy : (tb : Table) → Fin (tcTables nBuf tb) → BufTy
  | .hbm, ⟨0, _⟩ => ⟨S8x32x64x64x64, .f32⟩
  | .hbm, ⟨1, _⟩ => ⟨S32, .f32⟩
  | .hbm, ⟨2, _⟩ => ⟨S32, .f32⟩
  | .hbm, ⟨3, _⟩ => ⟨S8x32x262144, .f32⟩
  | .hbm, ⟨4, _⟩ => ⟨S8x3, .f32⟩
  | .hbm, ⟨5, _⟩ => ⟨S8x1, .f32⟩
  | .hbm, ⟨6, _⟩ => ⟨S8, .f32⟩
  | .hbm, ⟨7, _⟩ => ⟨S8x1, .f32⟩
  | .hbm, ⟨8, _⟩ => ⟨S8, .f32⟩
  | .hbm, ⟨9, _⟩ => ⟨S8x1, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .i1⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8x1, .f32⟩
  | .hbm, ⟨47, _⟩ => ⟨S8x1, .f32⟩
  | .hbm, ⟨48, _⟩ => ⟨S8x32x262144, .f32⟩
  | .hbm, ⟨49, _⟩ => ⟨S8x32x64x64x64, .f32⟩
  | .local _ .vmem, ⟨0, _⟩ => ⟨S8x32x4096, .f32⟩
  | .local _ .vmem, ⟨1, _⟩ => ⟨S8x32x4096, .f32⟩
  | .local _ .vmem, ⟨2, _⟩ => ⟨S8x3, .f32⟩
  | .local _ .vmem, ⟨3, _⟩ => ⟨S8x32x4096, .f32⟩
  | .local _ .vmem, ⟨4, _⟩ => ⟨S8x32x4096, .f32⟩
  | .local _ .vmem, ⟨5, _⟩ => ⟨S8x1, .f32⟩
  | .local _ .vmem, ⟨6, _⟩ => ⟨S8x1, .f32⟩
  | .local _ .vmem, ⟨7, _⟩ => ⟨S32, .f32⟩
  | .local _ .vmem, ⟨8, _⟩ => ⟨S32, .f32⟩
  | .local _ .vmem, ⟨9, _⟩ => ⟨S8x32x4096, .f32⟩
  | .local _ .vmem, ⟨10, _⟩ => ⟨S8x32x4096, .f32⟩
  | _, _ => ⟨S8x32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S8x32x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x32x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S8x32x64x64x64_S8x32x262144 : S8x32x64x64x64.ShapeCasts S8x32x262144
  inb_S8x3_S8x3_0_0 : ∀ a, (![0, 0] : Fin 2 → Nat) a + S8x3.size a ≤ S8x3.size a
  h_S8x3 : 0 < S8x3.numel
  inb_S8x32x4096_S8x32x4096_0_0_0 : ∀ a, (![0, 0, 0] : Fin 3 → Nat) a + S8x32x4096.size a ≤ S8x32x4096.size a
  h_S8x32x4096 : 0 < S8x32x4096.numel
  shapeCasts_S8x32x4096_S8x32x4096 : S8x32x4096.ShapeCasts S8x32x4096
  slices_S8x32x4096_o0_0_0_S8x1x4096 : S8x32x4096.Slices ![0, 0, 0] S8x1x4096
  natLt_1_32 : 1 < 32
  reduces_S8x1x4096_S8x1 : S8x1x4096.Reduces [2] S8x1
  broadcasts_S8x1x4096_S8x32x4096 : S8x1x4096.Broadcasts S8x32x4096
  reduces_S8x32x4096_S8x32 : S8x32x4096.Reduces [2] S8x32
  reduces_S8x32_S8 : S8x32.Reduces [1] S8
  shapeCasts_S8_S8x1 : S8.ShapeCasts S8x1
  concatenates_S8x1_S8x1_S8x1_S8x3_d1 : Shape.Concatenates [S8x1, S8x1, S8x1] S8x3 1
  shapeCasts_S8x3_S8x3 : S8x3.ShapeCasts S8x3
  slices_S8x3_S8x1_0_0 : S8x3.Slices ![0, 0] S8x1
  shapeCasts_S8x1_S8 : S8x1.ShapeCasts S8
  slices_S8x3_S8x1_0_1 : S8x3.Slices ![0, 1] S8x1
  slices_S8x3_S8x1_0_2 : S8x3.Slices ![0, 2] S8x1
  bcast_S_S8 : S_.BroadcastsInDim S8 (![] : Fin 0 → Fin S8.rank)
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x1_S8x1x1 : S8x1.ShapeCasts S8x1x1
  inb_S32_S32_0 : ∀ a, (![0] : Fin 1 → Nat) a + S32.size a ≤ S32.size a
  h_S32 : 0 < S32.numel
  shapeCasts_S32_S1x32x1 : S32.ShapeCasts S1x32x1
  broadcasts_S8x1x1_S8x32x4096 : S8x1x1.Broadcasts S8x32x4096
  broadcasts_S1x32x1_S8x32x4096 : S1x32x1.Broadcasts S8x32x4096
  shapeCasts_S8x32x262144_S8x32x64x64x64 : S8x32x262144.ShapeCasts S8x32x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x4096.size a ≤ S8x32x262144.size a
  hwx0_0 : ∀ i : grid0.Coords, EltTy.bits .f32 = 32 ∨ (Rect.block (s := S8x32x262144) S8x32x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3.size a ≤ S8x3.size a
  hwx0_1 : ∀ i : grid0.Coords, EltTy.bits .f32 = 32 ∨ (Rect.block (s := S8x3) S8x3.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x32x4096.size a ≤ S8x32x262144.size a
  hwx1_0 : ∀ i : grid1.Coords, EltTy.bits .f32 = 32 ∨ (Rect.block (s := S8x32x262144) S8x32x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x1.size a ≤ S8x1.size a
  hwx1_1 : ∀ i : grid1.Coords, EltTy.bits .f32 = 32 ∨ (Rect.block (s := S8x1) S8x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x1.size a ≤ S8x1.size a
  hwx1_2 : ∀ i : grid1.Coords, EltTy.bits .f32 = 32 ∨ (Rect.block (s := S8x1) S8x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x32x4096.size a ≤ S8x32x262144.size a
  hwx1_5 : ∀ i : grid1.Coords, EltTy.bits .f32 = 32 ∨ (Rect.block (s := S8x32x262144) S8x32x4096.size (cc1_transform_5 i) (hinb1_5 i)).WholeWords (EltTy.packing .f32)

variable [Facts₀]

abbrev win0_0 : Pipeline.Window sig grid0 :=
  Pipeline.Window.ofSpec (Memref.whole main_v0) S8x32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x3.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8x32x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S8x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S8x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S8x32x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x32x64x64x64 : Shape := ⟨5, ![8, 32, 64, 64, 64]⟩
abbrev S32 : Shape := ⟨1, ![32]⟩
abbrev S8x1x64x64x64 : Shape := ⟨5, ![8, 1, 64, 64, 64]⟩
abbrev S_ : Shape := ⟨0, ![]⟩
abbrev S8 : Shape := ⟨1, ![8]⟩
abbrev S8x1x1x1x1 : Shape := ⟨5, ![8, 1, 1, 1, 1]⟩
abbrev S1x32x1x1x1 : Shape := ⟨5, ![1, 32, 1, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S8x32x64x64x64, .f32⟩
  | .hbm, ⟨1, _⟩ => ⟨S32, .f32⟩
  | .hbm, ⟨2, _⟩ => ⟨S32, .f32⟩
  | .hbm, ⟨3, _⟩ => ⟨S8x1x64x64x64, .f32⟩
  | .hbm, ⟨4, _⟩ => ⟨S_, .f32⟩
  | .hbm, ⟨5, _⟩ => ⟨S8x1x64x64x64, .f32⟩
  | .hbm, ⟨6, _⟩ => ⟨S8x1x64x64x64, .i1⟩
  | .hbm, ⟨7, _⟩ => ⟨S8x1x64x64x64, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8x32x64x64x64, .f32⟩
  | .hbm, ⟨14, _⟩ => ⟨S8x32x64x64x64, .f32⟩
  | .hbm, ⟨15, _⟩ => ⟨S_, .f32⟩
  | .hbm, ⟨16, _⟩ => ⟨S8, .f32⟩
  | .hbm, ⟨17, _⟩ => ⟨S8x32x64x64x64, .f32⟩
  | .hbm, ⟨18, _⟩ => ⟨S8x32x64x64x64, .f32⟩
  | .hbm, ⟨19, _⟩ => ⟨S8x32x64x64x64, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .i1⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S8x1x1x1x1, .f32⟩
  | .hbm, ⟨52, _⟩ => ⟨S8x32x64x64x64, .f32⟩
  | .hbm, ⟨53, _⟩ => ⟨S8x32x64x64x64, .f32⟩
  | .hbm, ⟨54, _⟩ => ⟨S8x1x1x1x1, .f32⟩
  | .hbm, ⟨55, _⟩ => ⟨S_, .f32⟩
  | .hbm, ⟨56, _⟩ => ⟨S8x1x1x1x1, .f32⟩
  | .hbm, ⟨57, _⟩ => ⟨S8x1x1x1x1, .f32⟩
  | .hbm, ⟨58, _⟩ => ⟨S8x32x64x64x64, .f32⟩
  | .hbm, ⟨59, _⟩ => ⟨S8x32x64x64x64, .f32⟩
  | .hbm, ⟨60, _⟩ => ⟨S1x32x1x1x1, .f32⟩
  | .hbm, ⟨61, _⟩ => ⟨S8x32x64x64x64, .f32⟩
  | .hbm, ⟨62, _⟩ => ⟨S8x32x64x64x64, .f32⟩
  | .hbm, ⟨63, _⟩ => ⟨S1x32x1x1x1, .f32⟩
  | .hbm, ⟨64, _⟩ => ⟨S8x32x64x64x64, .f32⟩
  | .hbm, ⟨65, _⟩ => ⟨S8x32x64x64x64, .f32⟩
  | _, _ => ⟨S8x32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_call1_v0 : Ref sig .tc := ⟨.hbm, 48, rfl⟩
abbrev main_call1_v1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  slices_S8x32x64x64x64_S8x1x64x64x64_0_0_0_0_0 : S8x32x64x64x64.Slices ![0, 0, 0, 0, 0] S8x1x64x64x64
  bcast_S_S8x1x64x64x64 : S_.BroadcastsInDim S8x1x64x64x64 (![] : Fin 0 → Fin S8x1x64x64x64.rank)
  reducesTo_S8x1x64x64x64_S8_d1_2_3_4 : S8x1x64x64x64.ReducesTo [1, 2, 3, 4] S8
  h_S_ : 0 < S_.numel
  bcast_S_S8 : S_.BroadcastsInDim S8 (![] : Fin 0 → Fin S8.rank)
  bcast_S8x1x64x64x64_S8x32x64x64x64_0_1_2_3_4 : S8x1x64x64x64.BroadcastsInDim S8x32x64x64x64 (![0, 1, 2, 3, 4] : Fin 5 → Fin S8x32x64x64x64.rank)
  reducesTo_S8x32x64x64x64_S8_d1_2_3_4 : S8x32x64x64x64.ReducesTo [1, 2, 3, 4] S8
  shapeCasts_S8_S8x1x1x1x1 : S8.ShapeCasts S8x1x1x1x1
  bcast_S8x1x1x1x1_S8x32x64x64x64_0_1_2_3_4 : S8x1x1x1x1.BroadcastsInDim S8x32x64x64x64 (![0, 1, 2, 3, 4] : Fin 5 → Fin S8x32x64x64x64.rank)
  bcast_S_S8x1x1x1x1 : S_.BroadcastsInDim S8x1x1x1x1 (![] : Fin 0 → Fin S8x1x1x1x1.rank)
  shapeCasts_S32_S1x32x1x1x1 : S32.ShapeCasts S1x32x1x1x1
  bcast_S1x32x1x1x1_S8x32x64x64x64_0_1_2_3_4 : S1x32x1x1x1.BroadcastsInDim S8x32x64x64x64 (![0, 1, 2, 3, 4] : Fin 5 → Fin S8x32x64x64x64.rank)

variable [Facts₀]

class Facts : Prop extends Facts₀ where

variable [Facts]
-- ==== Proof.Spec.lean ====
/-
  What both programs compute, written once over the five-axis input x : [8, 32, 64, 64, 64] and the per-channel
  vectors γ, β : [32], on the extended reals.

  For a sample b the statistics run over every channel c and every position of the 64 × 64 × 64 volume; a position is
  addressed as (t, s) with t the first spatial coordinate and s = 64·h + w the place inside the 64 × 64 slab t, so the
  entry is x[b, c, t, s / 64, s % 64]. An entry counts when channel 0 at its position is not zero (`keep`):
    cntSum b = Σ_t Σ_s keep x[b,0,t,s]            cnt b = cntSum b · 32
    sm b     = Σ_t Σ_c Σ_s x[b,c,t,s] · keep x[b,0,t,s]
    sq b     = Σ_t Σ_c Σ_s (x[b,c,t,s] · x[b,c,t,s]) · keep x[b,0,t,s]
  From them a mean and a standard deviation per sample (`mean`, `std`: with the guards for an empty selection), and
  the result is γ[c] · ((x − mean) / (std + ε)) + β[c]. The second form `outK` multiplies by the reciprocal
  1 / (std + ε) after the product with γ[c]; std + ε is never zero, so the quotient is the product with the inverse
  and the two forms agree by associativity (`outK_eq_outR`).
-/
import Idealize.ShloMosaic.PureOps.Ideal
import Idealize.ShloMosaic.Lib.ValueIdx

noncomputable section

open scoped BigOperators

namespace Cert.Spec

open Idealize.ShloMosaic Idealize.ShloMosaic.ValueIdx

/-- The input's shape and a per-channel vector's. -/
abbrev A5 : Shape := ⟨5, ![8, 32, 64, 64, 64]⟩
abbrev A1 : Shape := ⟨1, ![32]⟩

/-- The four float words both programs use: 0, 1, 32 and ε = f32(1e-5). -/
abbrev z0 : Ideal .f32 := FloatOps.ofBits .f32 0x00000000#32
abbrev one : Ideal .f32 := FloatOps.ofBits .f32 0x3F800000#32
abbrev w32 : Ideal .f32 := FloatOps.ofBits .f32 0x42000000#32
abbrev eps : Ideal .f32 := FloatOps.ofBits .f32 0x3727C5AC#32

/-- 1 where the entry is not zero, else 0. -/
def keep (v : Ideal .f32) : Ideal .f32 := FloatOps.uitofp .f32 (FloatOps.cmpf .une v z0)

/-- Entry s of slab t, channel c, sample b. -/
def at5 (b : Fin 8) (c : Fin 32) (t : Fin 64) (s : Fin 4096) : A5.Idx :=
  ix5 b c t (⟨s.val / 64, by have := s.isLt; omega⟩ : Fin 64) (⟨s.val % 64, by omega⟩ : Fin 64)

/-- How many positions of sample b are kept, -/
def cntSum (x : A5.Idx → Ideal .f32) (b : Fin 8) : Ideal .f32 :=
  ∑ t : Fin 64, ∑ s : Fin 4096, keep (x (at5 b 0 t s))
/-- how many entries (32 channels at each), -/
def cnt (x : A5.Idx → Ideal .f32) (b : Fin 8) : Ideal .f32 := cntSum x b * w32
/-- their sum, -/
def sm (x : A5.Idx → Ideal .f32) (b : Fin 8) : Ideal .f32 :=
  ∑ t : Fin 64, ∑ c : Fin 32, ∑ s : Fin 4096, x (at5 b c t s) * keep (x (at5 b 0 t s))
/-- and the sum of their squares. -/
def sq (x : A5.Idx → Ideal .f32) (b : Fin 8) : Ideal .f32 :=
  ∑ t : Fin 64, ∑ c : Fin 32, ∑ s : Fin 4096, (x (at5 b c t s) * x (at5 b c t s)) * keep (x (at5 b 0 t s))

/-- The mean of n entries summing to s (0 when nothing is kept). -/
def mean (n s : Ideal .f32) : Ideal .f32 :=
  Scalar.select (FloatOps.cmpf .ogt n z0) (FloatOps.hostDivf s (FloatOps.maximumf n one)) z0

/-- The unbiased standard deviation from the count, the sum and the sum of squares (1 when nothing is kept). -/
def std (n s q : Ideal .f32) : Ideal .f32 :=
  Scalar.select (FloatOps.cmpf .ogt n z0)
    (FloatOps.hostUnary .sqrt
      (FloatOps.maximumf
        (FloatOps.hostDivf (FloatOps.subf q (FloatOps.mulf (FloatOps.mulf n (mean n s)) (mean n s)))
          (FloatOps.maximumf (FloatOps.subf n one) one))
        z0))
    one

/-- Sample b's mean and its denominator std + ε. -/
def mu (x : A5.Idx → Ideal .f32) (b : Fin 8) : Ideal .f32 := mean (cnt x b) (sm x b)
def den (x : A5.Idx → Ideal .f32) (b : Fin 8) : Ideal .f32 := FloatOps.addf (std (cnt x b) (sm x b) (sq x b)) eps

/-- The result with the quotient taken first: γ[c] · ((x − mean) / (std + ε)) + β[c]. -/
def outR (x : A5.Idx → Ideal .f32) (γ β : A1.Idx → Ideal .f32) (i : A5.Idx) : Ideal .f32 :=
  FloatOps.addf (FloatOps.mulf (γ (ix1 (i 1))) (FloatOps.hostDivf (FloatOps.subf (x i) (mu x (i 0))) (den x (i 0)))) (β (ix1 (i 1)))

/-- The result with the reciprocal taken once per sample: (γ[c] · (x − mean)) · (1 / (std + ε)) + β[c]. -/
def outK (x : A5.Idx → Ideal .f32) (γ β : A1.Idx → Ideal .f32) (i : A5.Idx) : Ideal .f32 :=
  FloatOps.addf (FloatOps.mulf (FloatOps.mulf (γ (ix1 (i 1))) (FloatOps.subf (x i) (mu x (i 0)))) (FloatOps.hostDivf one (den x (i 0)))) (β (ix1 (i 1)))

end Cert.Spec

end
-- ==== Proof.KDefs.lean ====
/-
  The kernel program's intermediate arrays, as functions of the arrays they are computed from.

  The program flattens x to x2 : [8, 32, 262144]; tile t of the flattened axis is the 4096 positions 4096·t + s.
  `statsOf x2` is the [8, 3] array of per-sample statistics the first launch accumulates over the 64 tiles —
  column 0 the count (each tile's kept positions times 32), column 1 the kept sum, column 2 the kept sum of squares —
  and `normOf` the [8, 32, 262144] array the second launch writes from x2, the per-sample mean and reciprocal
  (both [8, 1]) and the per-channel γ, β: (γ[c] · (x2 − mean[b])) · inv[b] + β[c].
-/
import proofs.«143069_j61598420959415_1_alg».proof.Proof.Gen.KernelIdeal.Frame
import proofs.«143069_j61598420959415_1_alg».proof.Proof.Spec
import Idealize.ShloMosaic.Lib.ValueIdx

noncomputable section

open Idealize.ShloMosaic Idealize.ShloMosaic.TcCoe Idealize.SL.Sem Idealize.ShloMosaic.ValueIdx
open scoped BigOperators

namespace Cert.KernelIdeal.KDefs

open Cert.KernelIdeal Cert.KernelIdeal.Gen

/-- The second launch's result array from the arrays it reads. -/
def normOf (x2 : S8x32x262144.Idx → Ideal .f32) (mean inv : S8x1.Idx → Ideal .f32) (γ β : S32.Idx → Ideal .f32) :
    S8x32x262144.Idx → Ideal .f32 :=
  fun j => FloatOps.addf (FloatOps.mulf (FloatOps.mulf (γ (ix1 (j 1))) (FloatOps.subf (x2 j) (mean (ix2 (j 0) (0 : Fin 1)))))
    (inv (ix2 (j 0) (0 : Fin 1)))) (β (ix1 (j 1)))

/-- Position s of tile t of the flattened input, channel c, sample b. -/
def at3 (b : Fin 8) (c : Fin 32) (t : Fin 64) (s : Fin 4096) : S8x32x262144.Idx :=
  ix3 b c (⟨4096 * t.val + s.val, by have := t.isLt; have := s.isLt; omega⟩ : Fin 262144)

/-- The statistics array: per sample the count, the kept sum and the kept sum of squares, tile by tile. -/
def statsOf (x2 : S8x32x262144.Idx → Ideal .f32) : S8x3.Idx → Ideal .f32 := fun j =>
  if (j 1).val = 0 then ∑ t : Fin 64, (∑ s : Fin 4096, Spec.keep (x2 (at3 (j 0) 0 t s))) * Spec.w32
  else if (j 1).val = 1 then ∑ t : Fin 64, ∑ c : Fin 32, ∑ s : Fin 4096, x2 (at3 (j 0) c t s) * Spec.keep (x2 (at3 (j 0) 0 t s))
  else ∑ t : Fin 64, ∑ c : Fin 32, ∑ s : Fin 4096, (x2 (at3 (j 0) c t s) * x2 (at3 (j 0) c t s)) * Spec.keep (x2 (at3 (j 0) 0 t s))

variable (m : (ℓ : Loc nD τ sig) → Buf (Elt Ideal) ℓ) (ρ : Dev nD → PrngReg)

/-- The statistics array as the first launch leaves it in memory. -/
abbrev st (c : Dev nD) : S8x3.Idx → Ideal .f32 := W2 m ρ c (Proc.devRef .tc main_v1)

end Cert.KernelIdeal.KDefs

end
-- ==== Proof.KStats.lean ====
/-
  The first launch's result: the [8, 3] statistics array.

  The launch walks the 64 tiles of the flattened input x2 : [8, 32, 262144]; tile t is the positions 4096·t + s. At
  each grid point the body adds, to the [8, 3] block it keeps in its staging buffer, the tile's three entries per
  sample b (`tileStat`):
      column 0   (Σ_s keep x[b, 0, s]) · 32                      the kept positions, times the 32 channels
      column 1   Σ_c Σ_s x[b, c, s] · keep x[b, 0, s]            the kept sum
      column 2   Σ_c Σ_s (x[b, c, s] · x[b, c, s]) · keep x[b, 0, s]
  (`pay2_apply`: the lane sums and the channel sum are plain sums at the ideal instance, the mask entry — an ordered
  not-equal against 0, widened to 32 bits and converted signed — is 0 or 1, the same number the unsigned conversion
  gives; the three columns are concatenated along axis 1). The first point starts from the zero block, every later
  point from what the point before left (`out_A`, `out_B`), so after point n the block holds the sum of the tiles
  0 … n (`acc`, `outsAt_eq`, `acc_apply`, by induction on the point). The block's index never moves and it is written
  back once, after the last point, where it is the whole array: the array ends holding `statsOf x2` (`final0`).
-/
import proofs.«143069_j61598420959415_1_alg».proof.Proof.KDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.KStats

open Cert.KernelIdeal Cert.KernelIdeal.Gen Cert.KernelIdeal.KDefs

/-- A one-bit word widened to 32 bits and read signed is the word read unsigned. -/
theorem bit_signed_eq (b : BitVec 1) : (((b.setWidth 32).toInt : ℝ) : EReal) = ((b.toNat : ℝ) : EReal) := by
  have h : (b.setWidth 32).toInt = (b.toNat : Int) := by revert b; decide
  rw [h]; norm_cast

/-- So the kernel's mask entry (an ordered not-equal against 0, widened, converted signed) is `Spec.keep`. -/
theorem keep_of_one (v : Ideal .f32) :
    FloatOps.sitofp (F := Ideal) .f32 ((FloatOps.cmpf .one v (Scalar.ofBits .f32 0x00000000#32)).setWidth 32) = Spec.keep v :=
  bit_signed_eq (Ideal.cmp .une v (Ideal.ofBits .f32 0x00000000#32))

/-- One tile's contribution to the three statistics of sample b. -/
def tileStat (x : S8x32x4096.Idx → Ideal .f32) : S8x3.Idx → Ideal .f32 := fun j =>
  if (j 1).val = 0 then (∑ s : Fin 4096, Spec.keep (x (ix3 (j 0) (0 : Fin 32) s))) * Spec.w32
  else if (j 1).val = 1 then ∑ c : Fin 32, ∑ s : Fin 4096, x (ix3 (j 0) c s) * Spec.keep (x (ix3 (j 0) (0 : Fin 32) s))
  else ∑ c : Fin 32, ∑ s : Fin 4096, (x (ix3 (j 0) c s) * x (ix3 (j 0) c s)) * Spec.keep (x (ix3 (j 0) (0 : Fin 32) s))

section Payload
variable (x : FVec Ideal S8x32x4096 .f32)

/-- the mask vector of the tile -/
abbrev maskV : FVec Ideal S8x1x4096 .f32 :=
  sitofp .f32 (extui 32 (cmpf .one (extractStridedSlice S8x1x4096 ![0, 0, 0] (shapeCast S8x32x4096 x shapeCasts_S8x32x4096_S8x32x4096 : FVec Ideal S8x32x4096 .f32) slices_S8x32x4096_o0_0_0_S8x1x4096)
    (broadcast S8x1x4096 (Scalar.ofBits .f32 0x00000000#32))) natLt_1_32)

theorem maskV_apply (b : Fin 8) (s : Fin 4096) : maskV x (ix3 b (0 : Fin 1) s) = Spec.keep (x (ix3 b (0 : Fin 32) s)) := by
  show FloatOps.sitofp (F := Ideal) .f32 ((FloatOps.cmpf .one (extractStridedSlice S8x1x4096 ![0, 0, 0] (shapeCast S8x32x4096 x shapeCasts_S8x32x4096_S8x32x4096 : FVec Ideal S8x32x4096 .f32) slices_S8x32x4096_o0_0_0_S8x1x4096 (ix3 b (0 : Fin 1) s)) (Scalar.ofBits .f32 0x00000000#32)).setWidth 32) = _
  rw [shapeCast_self, extractStridedSlice_apply ![0, 0, 0] x slices_S8x32x4096_o0_0_0_S8x1x4096 (ix3 b (0 : Fin 1) s) (ix3 b (0 : Fin 32) s)
    (fun a => match a with
      | ⟨0, _⟩ => by show b.val = 0 + b.val; omega
      | ⟨1, _⟩ => by show 0 = 0 + 0; rfl
      | ⟨2, _⟩ => by show s.val = 0 + s.val; omega)]
  exact keep_of_one _

/-- The mask spread over the 32 channels reads the same entry of channel 0. -/
theorem maskB_apply (b : Fin 8) (c : Fin 32) (s : Fin 4096) :
    broadcastTo S8x32x4096 (maskV x) broadcasts_S8x1x4096_S8x32x4096 (ix3 b c s) = Spec.keep (x (ix3 b (0 : Fin 32) s)) := by
  rw [broadcastTo_apply (maskV x) broadcasts_S8x1x4096_S8x32x4096 (ix3 b c s) (ix3 b (0 : Fin 1) s)
    (fun a => match a with
      | ⟨0, _⟩ => by show b.val = if (8 : Nat) = 1 then 0 else b.val; rw [if_neg (by decide)]
      | ⟨1, _⟩ => by show 0 = if (1 : Nat) = 1 then 0 else c.val; rw [if_pos rfl]
      | ⟨2, _⟩ => by show s.val = if (4096 : Nat) = 1 then 0 else s.val; rw [if_neg (by decide)])]
  exact maskV_apply x b s

/-- The tile's count entry: the lane sum of the mask times 32. -/
theorem cnt_col (b : Fin 8) :
    mulf (multiReduction .add [2] S8x1 (maskV x) 0x00000000#32 reduces_S8x1x4096_S8x1 (.inl rfl) rfl) (broadcast S8x1 (Scalar.ofBits .f32 0x42000000#32)) (ix2 b (0 : Fin 1))
      = (∑ s : Fin 4096, Spec.keep (x (ix3 b (0 : Fin 32) s))) * Spec.w32 := by
  show multiReduction .add [2] S8x1 (maskV x) 0x00000000#32 reduces_S8x1x4096_S8x1 (.inl rfl) rfl (ix2 b (0 : Fin 1)) * Spec.w32 = _
  refine congrArg (· * Spec.w32) ?_
  refine (Ideal.multiReduction_add_single (maskV x) 0x00000000#32 reduces_S8x1x4096_S8x1 (.inl rfl) rfl (ix2 b (0 : Fin 1))).trans ?_
  refine Finset.sum_congr rfl fun s _ => ?_
  have e : reduces_S8x1x4096_S8x1.lift (ix2 b (0 : Fin 1)) s = ix3 b (0 : Fin 1) s :=
    funext fun a => Fin.ext (by match a with | ⟨0, _⟩ => rfl | ⟨1, _⟩ => rfl | ⟨2, _⟩ => rfl)
  rw [e]; exact maskV_apply x b s

/-- A lane sum, then a channel sum, reshaped to a column: the double sum. -/
theorem red2 (y : FVec Ideal S8x32x4096 .f32) (b : Fin 8) :
    shapeCast S8x1 (multiReduction .add [1] S8 (multiReduction .add [2] S8x32 y 0x00000000#32 reduces_S8x32x4096_S8x32 (.inl rfl) rfl) 0x00000000#32 reduces_S8x32_S8 (.inl rfl) rfl) shapeCasts_S8_S8x1 (ix2 b (0 : Fin 1))
      = ∑ c : Fin 32, ∑ s : Fin 4096, y (ix3 b c s) := by
  rw [shapeCast_apply _ shapeCasts_S8_S8x1 (ix2 b (0 : Fin 1)) (ix1 b)
    (by rw [Shape.rowMajor_val_one, Shape.rowMajor_val_two]; show b.val = b.val * 1 + 0; omega)]
  refine (Ideal.multiReduction_add_single _ 0x00000000#32 reduces_S8x32_S8 (.inl rfl) rfl (ix1 b)).trans ?_
  refine Finset.sum_congr rfl fun c _ => ?_
  refine (Ideal.multiReduction_add_single y 0x00000000#32 reduces_S8x32x4096_S8x32 (.inl rfl) rfl _).trans ?_
  refine Finset.sum_congr rfl fun s _ => ?_
  exact congrArg y (funext fun a => Fin.ext (by match a with | ⟨0, _⟩ => rfl | ⟨1, _⟩ => rfl | ⟨2, _⟩ => rfl))

/-- A concatenation of three columns along axis 1 reads column k's piece. -/
theorem concat_col (p0 p1 p2 : FVec Ideal S8x1 .f32) (b : Fin 8) (k : Fin 3) :
    concatenate S8x3 1 [⟨S8x1, p0⟩, ⟨S8x1, p1⟩, ⟨S8x1, p2⟩] concatenates_S8x1_S8x1_S8x1_S8x3_d1 (ix2 b k)
      = if k.val = 0 then p0 (ix2 b (0 : Fin 1)) else if k.val = 1 then p1 (ix2 b (0 : Fin 1)) else p2 (ix2 b (0 : Fin 1)) := by
  have hi : ∀ (k : Fin 3) (b' : Fin S8x1.rank), b'.cast (rfl : S8x1.rank = S8x3.rank) ≠ (1 : Fin 2) →
      ((ix2 b (0 : Fin 1) : S8x1.Idx) b').val = ((ix2 b k : S8x3.Idx) (b'.cast rfl)).val := by
    intro k b' hb
    match b' with
    | ⟨0, _⟩ => rfl
    | ⟨1, _⟩ => exact absurd rfl hb
  match k with
  | ⟨0, _⟩ => exact concatenate_apply_piece (t := S8x3) (1 : Fin 2) [⟨S8x1, p0⟩, ⟨S8x1, p1⟩, ⟨S8x1, p2⟩] concatenates_S8x1_S8x1_S8x1_S8x3_d1 (ix2 b (0 : Fin 3)) 0 (by show 0 < 3; decide) S8x1 p0 rfl rfl 0 rfl (ix2 b (0 : Fin 1)) (hi 0) rfl
  | ⟨1, _⟩ => exact concatenate_apply_piece (t := S8x3) (1 : Fin 2) [⟨S8x1, p0⟩, ⟨S8x1, p1⟩, ⟨S8x1, p2⟩] concatenates_S8x1_S8x1_S8x1_S8x3_d1 (ix2 b (1 : Fin 3)) 1 (by show 1 < 3; decide) S8x1 p1 rfl rfl 1 rfl (ix2 b (0 : Fin 1)) (hi 1) rfl
  | ⟨2, _⟩ => exact concatenate_apply_piece (t := S8x3) (1 : Fin 2) [⟨S8x1, p0⟩, ⟨S8x1, p1⟩, ⟨S8x1, p2⟩] concatenates_S8x1_S8x1_S8x1_S8x3_d1 (ix2 b (2 : Fin 3)) 2 (by show 2 < 3; decide) S8x1 p2 rfl rfl 2 rfl (ix2 b (0 : Fin 1)) (hi 2) rfl

/-- What one grid point adds: the staging block's entry plus the tile's contribution. -/
theorem pay2_apply (xo : FVec Ideal S8x3 .f32) (b : Fin 8) (k : Fin 3) :
    k0_pay2 (F := Ideal) x xo (ix2 b k) = xo (ix2 b k) + tileStat x (ix2 b k) := by
  unfold k0_pay2
  dsimp only
  refine (addf_apply _ _ _).trans ?_
  rw [shapeCast_self]
  refine congrArg (xo (ix2 b k) + ·) ?_
  refine (concat_col _ _ _ b k).trans ?_
  unfold tileStat
  show (if k.val = 0 then _ else if k.val = 1 then _ else _) = (if k.val = 0 then _ else if k.val = 1 then _ else _)
  by_cases h0 : k.val = 0
  · rw [if_pos h0, if_pos h0]; exact cnt_col x b
  · rw [if_neg h0, if_neg h0]
    by_cases h1 : k.val = 1
    · rw [if_pos h1, if_pos h1]
      refine (red2 _ b).trans ?_
      refine Finset.sum_congr rfl fun c _ => Finset.sum_congr rfl fun s _ => ?_
      refine (mulf_apply _ _ _).trans ?_
      exact congrArg₂ (· * ·) (congrFun (shapeCast_self x _) _) (maskB_apply x b c s)
    · rw [if_neg h1, if_neg h1]
      refine (red2 _ b).trans ?_
      refine Finset.sum_congr rfl fun c _ => Finset.sum_congr rfl fun s _ => ?_
      refine (mulf_apply _ _ _).trans ?_
      refine congrArg₂ (· * ·) ?_ (maskB_apply x b c s)
      refine (mulf_apply _ _ _).trans ?_
      exact congrArg₂ (· * ·) (congrFun (shapeCast_self x _) _) (congrFun (shapeCast_self x _) _)

end Payload

/-! ## The accumulation over the grid -/

section Chain
variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A later point's body leaves the staging block's contents plus its tile: one covering store of the payload, whose two
    loads read the whole buffers. -/
theorem out_B (c : Dev nD) (i : grid0.Coords) (a1 : Memref sig .tc .vmem S8x32x4096 .f32) (h1 : a1.IsWhole)
    (a2 : Memref sig .tc .vmem S8x3 .f32) (h2 : a2.IsWhole) (hc : ¬cond0_0 i) (x : Vec F S8x32x4096 .f32) (xo : Vec F S8x3 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  sl_unfold_words
  rw [View.canon_unit_zero hz2]
  simp only [View.readAt_eq_ld, h1.read_unread, h2.read_unread, View.ld_unit_zero (S := S8x32x4096) hz3, View.ld_unit_zero (S := S8x3) hz2]

/-- The first point's body stores the zero block, reads it back, and leaves the zero block plus its tile. -/
theorem out_A (c : Dev nD) (i : grid0.Coords) (a1 : Memref sig .tc .vmem S8x32x4096 .f32) (h1 : a1.IsWhole)
    (a2 : Memref sig .tc .vmem S8x3 .f32) (h2 : a2.IsWhole) (hc : cond0_0 i) (x : Vec F S8x32x4096 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S8x3) hz2, View.readCov_unit_zero (S := S8x3) _ hz2]
  simp only [View.readAt_eq_ld, h1.read_unread, View.ld_unit_zero (S := S8x32x4096) hz3]

/-- The running statistics after point n: the zero block, then each tile's payload on top of what the point before left. -/
def acc (c : Dev nD) : (n : ℕ) → n < cfg0.N → Vec F S8x3 .f32
  | 0, h => k0_pay2 (iblk0 V c 0 ⟨0, h⟩) (k0_pay1 (F := F))
  | n + 1, h => k0_pay2 (iblk0 V c 0 ⟨n + 1, h⟩) (acc c n (Nat.lt_of_succ_lt h))

/-- What the output's staging block holds after point n is the running statistics: by induction on the point. -/
theorem outsAt_eq (c : Dev nD) : ∀ (n : ℕ) (h : n < cfg0.N), outsAt0 V c n h = acc V c n h
  | 0, h => (outsAt0_A V c ⟨0, h⟩ rfl).trans (out_A ..)
  | n + 1, h => by
    have hN : cfg0.N = 64 := N_0
    have hB : ¬(⟨n + 1, h⟩ : Fin cfg0.N).val % 64 = 0 := by dsimp only; omega
    rw [outsAt0_B V c ⟨n + 1, h⟩ hB, out_B]
    show k0_pay2 _ (outsAt0 V c n _) = k0_pay2 _ (acc V c n _)
    rw [outsAt_eq c n]

end Chain

/-! ## The statistics array -/

section Final
variable (V : (c : Dev nD) → (b : Ref sig .tc) → Buf (Elt Ideal) ((c : Thread nD τ).loc b))

/-- Block t of the flattened input is its positions 4096·t + s. -/
theorem idx0_facts : ∀ t : Fin cfg0.N, win0_0.index t (0 : Fin 3) = 0 ∧ win0_0.index t (1 : Fin 3) = 0 ∧ win0_0.index t (2 : Fin 3) = t.val :=
  (by decide +kernel : ∀ t : Fin grid0.N, win0_0.index t (0 : Fin 3) = 0 ∧ win0_0.index t (1 : Fin 3) = 0 ∧ win0_0.index t (2 : Fin 3) = t.val)

theorem iblk0_apply (c : Dev nD) (t : Fin cfg0.N) (b : Fin 8) (ch : Fin 32) (s : Fin 4096) :
    iblk0 V c 0 t (ix3 b ch s) = V c main_v0 (at3 b ch ⟨t.val, lt_of_lt_of_eq t.isLt N_0⟩ s) := by
  unfold iblk0
  rw [View.read_apply]
  show V c main_v0 (((cfg0.win 0).blk t).view.emb (ix3 b ch s)) = V c main_v0 _
  refine congrArg _ (funext fun a => Fin.ext ?_)
  obtain ⟨h0, h1, h2⟩ := idx0_facts t
  match a with
  | ⟨0, _⟩ => show win0_0.index t 0 * 8 + 1 * b.val = b.val; rw [h0]; omega
  | ⟨1, _⟩ => show win0_0.index t 1 * 32 + 1 * ch.val = ch.val; rw [h1]; omega
  | ⟨2, _⟩ => show win0_0.index t 2 * 4096 + 1 * s.val = 4096 * t.val + s.val; rw [h2]; omega

/-- The running statistics after point n, entry by entry: the sum of the tiles' contributions up to n. -/
theorem acc_apply (c : Dev nD) (b : Fin 8) (k : Fin 3) : ∀ (n : ℕ) (h : n < cfg0.N),
    acc V c n h (ix2 b k) = ∑ t : Fin (n + 1), tileStat (iblk0 V c 0 ⟨t.val, lt_of_lt_of_le t.isLt h⟩) (ix2 b k)
  | 0, h => by
    rw [Fin.sum_univ_one]
    show k0_pay2 (F := Ideal) _ _ (ix2 b k) = _
    rw [pay2_apply]
    show Ideal.ofBits .f32 0x00000000#32 + _ = _
    rw [Ideal.ofBits_zero_f32, zero_add]
    rfl
  | n + 1, h => by
    rw [Fin.sum_univ_castSucc]
    show k0_pay2 (F := Ideal) _ _ (ix2 b k) = _
    rw [pay2_apply, acc_apply c b k n (Nat.lt_of_succ_lt h)]
    rfl

/-- The last point, the one write-back. -/
abbrev tL : Fin cfg0.N := ⟨63, by decide⟩

/-- After the last point the staging block holds the statistics array. -/
theorem acc_last (c : Dev nD) : acc V c 63 tL.isLt = statsOf (V c main_v0) := by
  funext j
  obtain ⟨b, k, rfl⟩ : ∃ (b : Fin 8) (k : Fin 3), j = ix2 b k := ⟨j 0, j 1, eq_ix2 j⟩
  rw [acc_apply V c b k 63 tL.isLt]
  unfold statsOf tileStat
  show (∑ t : Fin 64, if k.val = 0 then _ else if k.val = 1 then _ else _) = (if k.val = 0 then _ else if k.val = 1 then _ else _)
  by_cases h0 : k.val = 0
  · simp only [if_pos h0]
    refine Finset.sum_congr rfl fun t _ => congrArg (· * Spec.w32) (Finset.sum_congr rfl fun s _ => ?_)
    rw [iblk0_apply]
  · simp only [if_neg h0]
    by_cases h1 : k.val = 1
    · simp only [if_pos h1]
      refine Finset.sum_congr rfl fun t _ => Finset.sum_congr rfl fun ch _ => Finset.sum_congr rfl fun s _ => ?_
      rw [iblk0_apply, iblk0_apply]
    · simp only [if_neg h1]
      refine Finset.sum_congr rfl fun t _ => Finset.sum_congr rfl fun ch _ => Finset.sum_congr rfl fun s _ => ?_
      rw [iblk0_apply, iblk0_apply]

theorem idx1_zero : (fun a => win0_1.index tL a * main_v1.ty.shape.size a) = fun _ => 0 :=
  funext fun a => by fin_cases a <;> decide

/-- The one write-back, at the last point, writes the statistics array: its block is the whole [8, 3] array. -/
theorem flushed_eq (c : Dev nD) (t : Fin cfg0.N) (hf : (cfg0.win 1).flush t = true) :
    (dat0 V c).flushed 1 t = ((cfg0.win 1).blk t).view.read (Elt Ideal) (statsOf (V c main_v0)) := by
  have hN : cfg0.N = 64 := N_0
  have h63 : t.val = 63 := by have := (flush0_1 t).mp hf; have := t.isLt; omega
  obtain rfl : t = tL := Fin.ext h63
  show (cfg0.win 1).cut (grid0.coords tL) ((dat0 V c).after 1 tL) = _
  rw [after0_1, outsAt_eq, acc_last]
  exact (Memref.read_access_unit_zero (Elt Ideal) main_v1 idx1_zero (fun a => by rw [congrFun idx1_zero a]; simp) (statsOf (V c main_v0))).symm

/-- So the statistics array ends holding `statsOf` of the flattened input. -/
theorem final0 (c : Dev nD) : (dat0 V c).arrAt 1 cfg0.N = statsOf (V c main_v0) :=
  (dat0 V c).arrAt_eq_of_cover 1 (statsOf (V c main_v0)) (flushed_eq V c) fun i =>
    ⟨tL, (flush0_1 tL).mpr rfl, by
      show i ∈ ((View.whole main_v1).slice (win0_1.rect tL)).set
      rw [View.set_slice_whole, Rect.mem_set_unit]
      intro a
      have h0 : (i 0 : Nat) < 8 := (i 0).isLt
      have h1 : (i 1 : Nat) < 3 := (i 1).isLt
      match a with
      | ⟨0, _⟩ =>
        show win0_1.index tL 0 * win0_1.size 0 ≤ (i 0 : Nat) ∧ (i 0 : Nat) < win0_1.index tL 0 * win0_1.size 0 + win0_1.xsize (grid0.coords tL) 0
        rw [show win0_1.index tL 0 * win0_1.size 0 = 0 from by decide +kernel, show win0_1.xsize (grid0.coords tL) 0 = 8 from by decide +kernel]; omega
      | ⟨1, _⟩ =>
        show win0_1.index tL 1 * win0_1.size 1 ≤ (i 1 : Nat) ∧ (i 1 : Nat) < win0_1.index tL 1 * win0_1.size 1 + win0_1.xsize (grid0.coords tL) 1
        rw [show win0_1.index tL 1 * win0_1.size 1 = 0 from by decide +kernel, show win0_1.xsize (grid0.coords tL) 1 = 3 from by decide +kernel]; omega⟩

end Final

end Cert.KernelIdeal.KStats
end
-- ==== Proof.KNorm.lean ====
/-
  The second launch's result array, read off its blocks.

  Grid point t of the second launch reads tile t of the flattened input (positions 4096·t … 4096·t + 4095 of every sample
  and channel), the per-sample mean and reciprocal and the per-channel γ and β whole, and writes tile t of the result: at
  (b, c, s) the value (γ[c] · (x − mean[b])) · inv[b] + β[c]. Every entry of that tile is `normOf` of the five arrays at
  the array index under it, and the 64 tiles cover the flattened axis (index j lies in tile j₂ / 4096), so the array ends
  holding `normOf` of the five arrays the launch reads.
-/
import proofs.«143069_j61598420959415_1_alg».proof.Proof.KDefs
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KNorm

open Cert.KernelIdeal Cert.KernelIdeal.Gen Cert.KernelIdeal.KDefs

/-! ## The body's value at one entry of a tile -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

section Leaves
variable {α : Type}

/-- A per-sample column [8, 1], viewed as [8, 1, 1] and broadcast over channels and positions, reads the sample's entry. -/
theorem sampleBcast_apply (v : S8x1.Idx → α) (h1 : S8x1.ShapeCasts S8x1) (h2 : S8x1.ShapeCasts S8x1x1)
    (h3 : S8x1x1.Broadcasts S8x32x4096) (p : Fin 8) (q : Fin 32) (r : Fin 4096) :
    broadcastTo S8x32x4096 (shapeCast S8x1x1 (shapeCast S8x1 v h1) h2) h3 (ix3 p q r) = v (ix2 p (0 : Fin 1)) := by
  rw [shapeCast_self]
  refine (broadcastTo_apply _ h3 (ix3 p q r) (ix3 p (0 : Fin 1) (0 : Fin 1)) fun a => ?_).trans ?_
  · match a with
    | ⟨0, _⟩ => rfl
    | ⟨1, _⟩ => rfl
    | ⟨2, _⟩ => rfl
  · refine shapeCast_apply v h2 _ _ ?_
    rw [Shape.rowMajor_val_two, Shape.rowMajor_val_three]
    show p.val * 1 + 0 = (p.val * 1 + 0) * 1 + 0
    omega

/-- A per-channel vector [32], viewed as [1, 32, 1] and broadcast over samples and positions, reads the channel's entry. -/
theorem channelBcast_apply (v : S32.Idx → α) (h1 : S32.ShapeCasts S1x32x1) (h2 : S1x32x1.Broadcasts S8x32x4096)
    (p : Fin 8) (q : Fin 32) (r : Fin 4096) :
    broadcastTo S8x32x4096 (shapeCast S1x32x1 v h1) h2 (ix3 p q r) = v (ix1 q) := by
  refine (broadcastTo_apply _ h2 (ix3 p q r) (ix3 (0 : Fin 1) q (0 : Fin 1)) fun a => ?_).trans ?_
  · match a with
    | ⟨0, _⟩ => rfl
    | ⟨1, _⟩ => rfl
    | ⟨2, _⟩ => rfl
  · refine shapeCast_apply v h1 _ _ ?_
    rw [Shape.rowMajor_val_one, Shape.rowMajor_val_three]
    show q.val = (0 * 32 + q.val) * 1 + 0
    omega

end Leaves

/-- The body's value at entry (p, q, r) of a tile: the channel's γ times the entry less the sample's mean, times the
    sample's reciprocal, plus the channel's β. -/
theorem pay_apply (x0 : Vec Ideal S8x32x4096 .f32) (x1 x2 : Vec Ideal S8x1 .f32) (x3 x4 : Vec Ideal S32 .f32)
    (p : Fin 8) (q : Fin 32) (r : Fin 4096) :
    k1_pay1 x0 x1 x2 x3 x4 (ix3 p q r)
      = FloatOps.addf (FloatOps.mulf (FloatOps.mulf (x3 (ix1 q)) (FloatOps.subf (x0 (ix3 p q r)) (x1 (ix2 p (0 : Fin 1)))))
          (x2 (ix2 p (0 : Fin 1)))) (x4 (ix1 q)) := by
  unfold k1_pay1
  show FloatOps.addf (F := Ideal) (φ := .f32) (FloatOps.mulf (F := Ideal) (φ := .f32) (FloatOps.mulf (F := Ideal) (φ := .f32)
        (broadcastTo S8x32x4096 (shapeCast S1x32x1 x3 shapeCasts_S32_S1x32x1) broadcasts_S1x32x1_S8x32x4096 (ix3 p q r))
        (FloatOps.subf (F := Ideal) (φ := .f32) (shapeCast S8x32x4096 x0 shapeCasts_S8x32x4096_S8x32x4096 (ix3 p q r))
          (broadcastTo S8x32x4096 (shapeCast S8x1x1 (shapeCast S8x1 x1 shapeCasts_S8x1_S8x1) shapeCasts_S8x1_S8x1x1)
            broadcasts_S8x1x1_S8x32x4096 (ix3 p q r))))
        (broadcastTo S8x32x4096 (shapeCast S8x1x1 (shapeCast S8x1 x2 shapeCasts_S8x1_S8x1) shapeCasts_S8x1_S8x1x1)
          broadcasts_S8x1x1_S8x32x4096 (ix3 p q r)))
      (broadcastTo S8x32x4096 (shapeCast S1x32x1 x4 shapeCasts_S32_S1x32x1) broadcasts_S1x32x1_S8x32x4096 (ix3 p q r)) = _
  rw [channelBcast_apply, channelBcast_apply, sampleBcast_apply, sampleBcast_apply, shapeCast_self]

/-- `normOf` at an array index whose sample and channel coordinates are p and q. -/
theorem normOf_apply (X : S8x32x262144.Idx → Ideal .f32) (M I : S8x1.Idx → Ideal .f32) (G B : S32.Idx → Ideal .f32)
    (i : S8x32x262144.Idx) (p : Fin 8) (q : Fin 32) (hp : (i 0).val = p.val) (hq : (i 1).val = q.val) :
    normOf X M I G B i
      = FloatOps.addf (FloatOps.mulf (FloatOps.mulf (G (ix1 q)) (FloatOps.subf (X i) (M (ix2 p (0 : Fin 1)))))
          (I (ix2 p (0 : Fin 1)))) (B (ix1 q)) := by
  obtain rfl : (i 0 : Fin 8) = p := Fin.ext hp
  obtain rfl : (i 1 : Fin 32) = q := Fin.ext hq
  rfl

/-- A tile whose entries are the input array's under an index map `e` that keeps the sample and channel coordinates,
    with the four small arrays read whole, is sent by the body to `normOf` of the five arrays under `e`. -/
theorem tile_eq (X : S8x32x262144.Idx → Ideal .f32) (M I : S8x1.Idx → Ideal .f32) (G B : S32.Idx → Ideal .f32)
    (x0 : Vec Ideal S8x32x4096 .f32) (x1 x2 : Vec Ideal S8x1 .f32) (x3 x4 : Vec Ideal S32 .f32)
    (e : S8x32x4096.Idx → S8x32x262144.Idx)
    (h0 : ∀ y, x0 y = X (e y)) (h1 : x1 = M) (h2 : x2 = I) (h3 : x3 = G) (h4 : x4 = B)
    (he0 : ∀ y, (e y 0).val = (y 0).val) (he1 : ∀ y, (e y 1).val = (y 1).val) :
    k1_pay1 x0 x1 x2 x3 x4 = fun y => normOf X M I G B (e y) := by
  subst h1 h2 h3 h4
  funext y
  obtain ⟨p, q, r, rfl⟩ : ∃ (p : Fin 8) (q : Fin 32) (r : Fin 4096), y = ix3 p q r := ⟨y 0, y 1, y 2, eq_ix3 y⟩
  rw [pay_apply, h0]
  exact (normOf_apply X x1 x2 x3 x4 (e (ix3 p q r)) p q (he0 _) (he1 _)).symm

/-! ## The windows' blocks at a grid point -/

variable (V : (c : Dev nD) → (b : Ref sig .tc) → Buf (Elt Ideal) ((c : Thread nD τ).loc b))

/-- The printed index maps over the grid: the input's and the result's tiles sit at block (0, 0, t); the four small
    arrays are read at block 0. -/
theorem idx_facts : ∀ t : Fin cfg1.N,
    win1_0.index t (0 : Fin 3) = 0 ∧ win1_0.index t (1 : Fin 3) = 0 ∧ win1_0.index t (2 : Fin 3) = t.val
    ∧ win1_5.index t (0 : Fin 3) = 0 ∧ win1_5.index t (1 : Fin 3) = 0 ∧ win1_5.index t (2 : Fin 3) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0 ∧ win1_4.index t (0 : Fin 1) = 0 :=
  (by decide +kernel : ∀ t : Fin grid1.N, _)

/-- The input's tile at point t, entry by entry, is the input array under the result tile's index map. -/
theorem in0 (c : Dev nD) (t : Fin cfg1.N) (y : S8x32x4096.Idx) :
    (iblk1 V c 0 t : Vec Ideal S8x32x4096 .f32) y
      = (V c main_v0 : S8x32x262144.Idx → Ideal .f32) (((cfg1.win 5).blk t).view.emb y) := by
  obtain ⟨a0, a1, a2, b0, b1, b2, -⟩ := idx_facts t
  show V c main_v0 (((cfg1.win 0).blk t).view.emb y) = V c main_v0 (((cfg1.win 5).blk t).view.emb y)
  have h : ((cfg1.win 0).blk t).view.emb y = ((cfg1.win 5).blk t).view.emb y := by
    funext a; apply Fin.ext
    match a with
    | ⟨0, _⟩ => show win1_0.index t (0 : Fin 3) * 8 + 1 * (y 0).val = win1_5.index t (0 : Fin 3) * 8 + 1 * (y 0).val; omega
    | ⟨1, _⟩ => show win1_0.index t (1 : Fin 3) * 32 + 1 * (y 1).val = win1_5.index t (1 : Fin 3) * 32 + 1 * (y 1).val; omega
    | ⟨2, _⟩ => show win1_0.index t (2 : Fin 3) * 4096 + 1 * (y 2).val = win1_5.index t (2 : Fin 3) * 4096 + 1 * (y 2).val; omega
  rw [h]

/-- The mean is read whole at every point. -/
theorem in1 (c : Dev nD) (t : Fin cfg1.N) :
    (iblk1 V c 1 t : Vec Ideal S8x1 .f32) = (V c main_v30 : S8x1.Idx → Ideal .f32) := by
  obtain ⟨-, -, -, -, -, -, a0, a1, -⟩ := idx_facts t
  funext y
  show V c main_v30 (((cfg1.win 1).blk t).view.emb y) = V c main_v30 y
  have h : ((cfg1.win 1).blk t).view.emb y = y := by
    funext a; apply Fin.ext
    match a with
    | ⟨0, _⟩ => show win1_1.index t (0 : Fin 2) * 8 + 1 * (y 0).val = (y 0).val; omega
    | ⟨1, _⟩ => show win1_1.index t (1 : Fin 2) * 1 + 1 * (y 1).val = (y 1).val; omega
  rw [h]

/-- The reciprocal is read whole at every point. -/
theorem in2 (c : Dev nD) (t : Fin cfg1.N) :
    (iblk1 V c 2 t : Vec Ideal S8x1 .f32) = (V c main_v31 : S8x1.Idx → Ideal .f32) := by
  obtain ⟨-, -, -, -, -, -, -, -, a0, a1, -⟩ := idx_facts t
  funext y
  show V c main_v31 (((cfg1.win 2).blk t).view.emb y) = V c main_v31 y
  have h : ((cfg1.win 2).blk t).view.emb y = y := by
    funext a; apply Fin.ext
    match a with
    | ⟨0, _⟩ => show win1_2.index t (0 : Fin 2) * 8 + 1 * (y 0).val = (y 0).val; omega
    | ⟨1, _⟩ => show win1_2.index t (1 : Fin 2) * 1 + 1 * (y 1).val = (y 1).val; omega
  rw [h]

/-- γ is read whole at every point. -/
theorem in3 (c : Dev nD) (t : Fin cfg1.N) :
    (iblk1 V c 3 t : Vec Ideal S32 .f32) = (V c main_arg1 : S32.Idx → Ideal .f32) := by
  obtain ⟨-, -, -, -, -, -, -, -, -, -, a0, -⟩ := idx_facts t
  funext y
  show V c main_arg1 (((cfg1.win 3).blk t).view.emb y) = V c main_arg1 y
  have h : ((cfg1.win 3).blk t).view.emb y = y := by
    funext a; apply Fin.ext
    match a with
    | ⟨0, _⟩ => show win1_3.index t (0 : Fin 1) * 32 + 1 * (y 0).val = (y 0).val; omega
  rw [h]

/-- β is read whole at every point. -/
theorem in4 (c : Dev nD) (t : Fin cfg1.N) :
    (iblk1 V c 4 t : Vec Ideal S32 .f32) = (V c main_arg2 : S32.Idx → Ideal .f32) := by
  obtain ⟨-, -, -, -, -, -, -, -, -, -, -, a0⟩ := idx_facts t
  funext y
  show V c main_arg2 (((cfg1.win 4).blk t).view.emb y) = V c main_arg2 y
  have h : ((cfg1.win 4).blk t).view.emb y = y := by
    funext a; apply Fin.ext
    match a with
    | ⟨0, _⟩ => show win1_4.index t (0 : Fin 1) * 32 + 1 * (y 0).val = (y 0).val; omega
  rw [h]

/-- The result tile's index map keeps the sample and the channel coordinate. -/
theorem emb5 (t : Fin cfg1.N) (y : S8x32x4096.Idx) :
    ((((cfg1.win 5).blk t).view.emb y : S8x32x262144.Idx) 0).val = (y 0).val
    ∧ ((((cfg1.win 5).blk t).view.emb y : S8x32x262144.Idx) 1).val = (y 1).val := by
  obtain ⟨-, -, -, b0, b1, -⟩ := idx_facts t
  constructor
  · show win1_5.index t (0 : Fin 3) * 8 + 1 * (y 0).val = (y 0).val; omega
  · show win1_5.index t (1 : Fin 3) * 32 + 1 * (y 1).val = (y 1).val; omega

/-! ## What a grid point writes back, and the array after the last point -/

/-- Point t writes back tile t of `normOf` of the five arrays as the launch finds them. -/
theorem flushed_eq (c : Dev nD) (t : Fin cfg1.N) :
    (dat1 V c).flushed 5 t = ((cfg1.win 5).blk t).view.read (Elt Ideal)
      (normOf (V c main_v0) (V c main_v30) (V c main_v31) (V c main_arg1) (V c main_arg2)) := by
  show (cfg1.win 5).cut (grid1.coords t) ((dat1 V c).after 5 t) = _
  rw [after1_5]
  unfold out1_5
  rw [View.canon_unit_zero zeros3]
  simp only [View.ld_unit_zero (S := S8x32x4096) zeros3, View.ld_unit_zero (S := S8x1) zeros2, View.ld_unit_zero (S := S32) zeros1]
  have h := tile_eq (V c main_v0) (V c main_v30) (V c main_v31) (V c main_arg1) (V c main_arg2)
    (iblk1 V c 0 t) (iblk1 V c 1 t) (iblk1 V c 2 t) (iblk1 V c 3 t) (iblk1 V c 4 t)
    (fun y => ((cfg1.win 5).blk t).view.emb y) (in0 V c t) (in1 V c t) (in2 V c t) (in3 V c t) (in4 V c t)
    (fun y => (emb5 t y).1) (fun y => (emb5 t y).2)
  funext j
  exact congrFun h j

/-- An array index lies in point t's tile iff each coordinate lies in the tile's range on its axis. -/
theorem mem_tile (t : Fin cfg1.N) (i : S8x32x262144.Idx) :
    i ∈ ((cfg1.win 5).blk t).view.set ↔ ∀ a : Fin 3, win1_5.index t a * S8x32x4096.size a ≤ (i a).val
      ∧ (i a).val < win1_5.index t a * S8x32x4096.size a + S8x32x4096.size a := by
  show i ∈ ((View.whole main_v32).slice (win1_5.rect t)).set ↔ _
  rw [View.set_slice_whole, Rect.mem_set_unit]
  exact Iff.rfl

/-- The 64 tiles cover the array: index j lies in the tile of point j₂ / 4096. -/
theorem cover (i : S8x32x262144.Idx) :
    ∃ t : Fin cfg1.N, (cfg1.win 5).flush t = true ∧ i ∈ ((cfg1.win 5).blk t).view.set := by
  have hi0 : (i 0).val < 8 := (i 0).isLt
  have hi1 : (i 1).val < 32 := (i 1).isLt
  have hi2 : (i 2).val < 262144 := (i 2).isLt
  have hN : cfg1.N = 64 := N_1
  obtain ⟨t, ht⟩ : ∃ t : Fin cfg1.N, t.val = (i 2).val / 4096 := ⟨⟨(i 2).val / 4096, by rw [hN]; omega⟩, rfl⟩
  obtain ⟨-, -, -, b0, b1, b2, -⟩ := idx_facts t
  refine ⟨t, flush1_5 t, ?_⟩
  rw [mem_tile]
  intro a
  match a with
  | ⟨0, _⟩ => show win1_5.index t (0 : Fin 3) * 8 ≤ (i 0).val ∧ (i 0).val < win1_5.index t (0 : Fin 3) * 8 + 8; omega
  | ⟨1, _⟩ => show win1_5.index t (1 : Fin 3) * 32 ≤ (i 1).val ∧ (i 1).val < win1_5.index t (1 : Fin 3) * 32 + 32; omega
  | ⟨2, _⟩ => show win1_5.index t (2 : Fin 3) * 4096 ≤ (i 2).val ∧ (i 2).val < win1_5.index t (2 : Fin 3) * 4096 + 4096; omega

/-- The second launch's result array after its last point is `normOf` of the five arrays the launch reads. -/
theorem final1 (c : Dev nD) :
    (dat1 V c).arrAt 5 cfg1.N = normOf (V c main_v0) (V c main_v30) (V c main_v31) (V c main_arg1) (V c main_arg2) :=
  (dat1 V c).arrAt_eq_of_cover 5 _ (fun t _ => flushed_eq V c t) cover

end Cert.KernelIdeal.KNorm

end
-- ==== Proof.KHost.lean ====
/-
  The host operations of the kernel program between and around its two launches, read back through the fold of
  buffer contents.

  Between the launches the program slices the [8, 3] statistics array into its three columns (count, kept sum, kept
  sum of squares), each reshaped to a vector of length 8, and computes per sample the guarded mean
  (sum / max(count, 1) where count > 0, else 0), the guarded standard deviation and the reciprocal 1 / (std + ε);
  both vectors are reshaped to [8, 1] for the second launch. Before the first launch the input is flattened to
  [8, 32, 262144]; after the second the result is reshaped back to five axes. Every other buffer the second launch
  reads (the flattened input, γ, β) holds what it held when written.
-/
import proofs.«143069_j61598420959415_1_alg».proof.Proof.KDefs
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open scoped BigOperators

namespace Cert.KernelIdeal.KHost
open Cert.KernelIdeal Cert.KernelIdeal.Gen Cert.KernelIdeal.KDefs

/-! ## The two per-sample vectors as terms of the statistics array -/

/-- The three columns of the statistics array as vectors over the samples: the count, the kept sum and the kept sum
    of squares. -/
def cntV (s : S8x3.Idx → Ideal .f32) : S8.Idx → Ideal .f32 :=
  shapeCast S8 (extractStridedSlice S8x1 ![0, 0] s slices_S8x3_S8x1_0_0) shapeCasts_S8x1_S8
def smV (s : S8x3.Idx → Ideal .f32) : S8.Idx → Ideal .f32 :=
  shapeCast S8 (extractStridedSlice S8x1 ![0, 1] s slices_S8x3_S8x1_0_1) shapeCasts_S8x1_S8
def sqV (s : S8x3.Idx → Ideal .f32) : S8.Idx → Ideal .f32 :=
  shapeCast S8 (extractStridedSlice S8x1 ![0, 2] s slices_S8x3_S8x1_0_2) shapeCasts_S8x1_S8

/-- One float word at every sample. -/
def bc (w : BitVec 32) : S8.Idx → Ideal .f32 := broadcastInDim S8 ![] bcast_S_S8 (constant (F := Ideal) S_ .f32 w)

/-- Where the count is positive. -/
def gtV (s : S8x3.Idx → Ideal .f32) : IVec S8 1 := cmpf .ogt (cntV s) (bc 0x00000000#32)
/-- The kept sum over max(count, 1). -/
def quoV (s : S8x3.Idx → Ideal .f32) : S8.Idx → Ideal .f32 := Host.divf (smV s) (maximumf (cntV s) (bc 0x3F800000#32))
/-- The guarded mean: the quotient where the count is positive, else 0. -/
def meanV (s : S8x3.Idx → Ideal .f32) : S8.Idx → Ideal .f32 := select (gtV s) (quoV s) (bc 0x00000000#32)
/-- The root of the clamped variance (sq − count · mean · mean) / max(count − 1, 1). -/
def rootV (s : S8x3.Idx → Ideal .f32) : S8.Idx → Ideal .f32 :=
  Host.sqrt (maximumf
    (Host.divf (subf (sqV s) (mulf (mulf (cntV s) (meanV s)) (meanV s)))
      (maximumf (subf (cntV s) (bc 0x3F800000#32)) (bc 0x3F800000#32)))
    (bc 0x00000000#32))
/-- The guarded standard deviation: the root where the count is positive, else 1. -/
def stdV (s : S8x3.Idx → Ideal .f32) : S8.Idx → Ideal .f32 := select (gtV s) (rootV s) (bc 0x3F800000#32)
/-- The reciprocal 1 / (std + ε). -/
def invV (s : S8x3.Idx → Ideal .f32) : S8.Idx → Ideal .f32 := Host.divf (bc 0x3F800000#32) (addf (stdV s) (bc 0x3727C5AC#32))

/-! ## Each stretch of host operations, from arbitrary contents

  What a stretch leaves in the buffers the two vectors are computed through, as the stretch's operations applied to
  the contents it starts from; a buffer the stretch does not write keeps its contents. -/

section Stretches
variable (V : Valuation τ sig (Elt Ideal))

/-- The flattening of the input before the first launch. -/
theorem s0_v0 : (StableHlo.after hostOps0 V (Proc.devRef .tc main_v0) : S8x32x262144.Idx → Ideal .f32)
    = shapeCast S8x32x262144 (V (Proc.devRef .tc main_arg0)) shapeCasts_S8x32x64x64x64_S8x32x262144 := by
  after_results; rfl

/-- The first stretch after the first launch: the three columns, the test count > 0, the quotient and a zero. -/
theorem s1_v3 : (StableHlo.after hostOps1 V (Proc.devRef .tc main_v3) : S8.Idx → Ideal .f32) = cntV (V (Proc.devRef .tc main_v1)) := by
  after_results; rfl
theorem s1_v5 : (StableHlo.after hostOps1 V (Proc.devRef .tc main_v5) : S8.Idx → Ideal .f32) = smV (V (Proc.devRef .tc main_v1)) := by
  after_results; rfl
theorem s1_v7 : (StableHlo.after hostOps1 V (Proc.devRef .tc main_v7) : S8.Idx → Ideal .f32) = sqV (V (Proc.devRef .tc main_v1)) := by
  after_results; rfl
theorem s1_v9 : (StableHlo.after hostOps1 V (Proc.devRef .tc main_v9) : IVec S8 1) = gtV (V (Proc.devRef .tc main_v1)) := by
  after_results; rfl
theorem s1_v12 : (StableHlo.after hostOps1 V (Proc.devRef .tc main_v12) : S8.Idx → Ideal .f32) = quoV (V (Proc.devRef .tc main_v1)) := by
  after_results; rfl
theorem s1_cst1 : (StableHlo.after hostOps1 V (Proc.devRef .tc main_cst_1) : S_.Idx → Ideal .f32) = constant (F := Ideal) S_ .f32 0x00000000#32 := by
  after_results
theorem s1_v0 : StableHlo.after hostOps1 V (Proc.devRef .tc main_v0) = V (Proc.devRef .tc main_v0) := by
  after_results

/-- The first guard: the quotient where the test holds, else the zero. -/
theorem s11_v13 : (StableHlo.after hostOps1_1 V (Proc.devRef .tc main_v13) : S8.Idx → Ideal .f32)
    = select (V (Proc.devRef .tc main_v9) : IVec S8 1) (V (Proc.devRef .tc main_v12) : S8.Idx → Ideal .f32)
        (broadcastInDim S8 ![] bcast_S_S8 (V (Proc.devRef .tc main_cst_1) : S_.Idx → Ideal .f32)) := by
  after_results
  simp only [StableHlo.TRef.ofBuf, StableHlo.TRef.toBuf, cast_eq]
  rfl
theorem s11_v3 : StableHlo.after hostOps1_1 V (Proc.devRef .tc main_v3) = V (Proc.devRef .tc main_v3) := by
  after_results
theorem s11_v7 : StableHlo.after hostOps1_1 V (Proc.devRef .tc main_v7) = V (Proc.devRef .tc main_v7) := by
  after_results
theorem s11_v9 : StableHlo.after hostOps1_1 V (Proc.devRef .tc main_v9) = V (Proc.devRef .tc main_v9) := by
  after_results
theorem s11_v0 : StableHlo.after hostOps1_1 V (Proc.devRef .tc main_v0) = V (Proc.devRef .tc main_v0) := by
  after_results

/-- The variance, its clamp and root, and a one. -/
theorem s12_v24 : (StableHlo.after hostOps1_2 V (Proc.devRef .tc main_v24) : S8.Idx → Ideal .f32)
    = Host.sqrt (maximumf
        (Host.divf (subf (V (Proc.devRef .tc main_v7) : S8.Idx → Ideal .f32)
            (mulf (mulf (V (Proc.devRef .tc main_v3) : S8.Idx → Ideal .f32) (V (Proc.devRef .tc main_v13) : S8.Idx → Ideal .f32))
              (V (Proc.devRef .tc main_v13) : S8.Idx → Ideal .f32)))
          (maximumf (subf (V (Proc.devRef .tc main_v3) : S8.Idx → Ideal .f32) (bc 0x3F800000#32)) (bc 0x3F800000#32)))
        (bc 0x00000000#32)) := by
  after_results; rfl
theorem s12_cst5 : (StableHlo.after hostOps1_2 V (Proc.devRef .tc main_cst_5) : S_.Idx → Ideal .f32) = constant (F := Ideal) S_ .f32 0x3F800000#32 := by
  after_results
theorem s12_v13 : StableHlo.after hostOps1_2 V (Proc.devRef .tc main_v13) = V (Proc.devRef .tc main_v13) := by
  after_results
theorem s12_v9 : StableHlo.after hostOps1_2 V (Proc.devRef .tc main_v9) = V (Proc.devRef .tc main_v9) := by
  after_results
theorem s12_v0 : StableHlo.after hostOps1_2 V (Proc.devRef .tc main_v0) = V (Proc.devRef .tc main_v0) := by
  after_results

/-- The second guard: the root where the test holds, else the one. -/
theorem s13_v25 : (StableHlo.after hostOps1_3 V (Proc.devRef .tc main_v25) : S8.Idx → Ideal .f32)
    = select (V (Proc.devRef .tc main_v9) : IVec S8 1) (V (Proc.devRef .tc main_v24) : S8.Idx → Ideal .f32)
        (broadcastInDim S8 ![] bcast_S_S8 (V (Proc.devRef .tc main_cst_5) : S_.Idx → Ideal .f32)) := by
  after_results
  simp only [StableHlo.TRef.ofBuf, StableHlo.TRef.toBuf, cast_eq]
  rfl
theorem s13_v13 : StableHlo.after hostOps1_3 V (Proc.devRef .tc main_v13) = V (Proc.devRef .tc main_v13) := by
  after_results
theorem s13_v0 : StableHlo.after hostOps1_3 V (Proc.devRef .tc main_v0) = V (Proc.devRef .tc main_v0) := by
  after_results

/-- The reciprocal of std + ε, and the two reshapes to a column. -/
theorem s14_v30 : (StableHlo.after hostOps1_4 V (Proc.devRef .tc main_v30) : S8x1.Idx → Ideal .f32)
    = shapeCast S8x1 (V (Proc.devRef .tc main_v13) : S8.Idx → Ideal .f32) shapeCasts_S8_S8x1 := by
  after_results; rfl
theorem s14_v31 : (StableHlo.after hostOps1_4 V (Proc.devRef .tc main_v31) : S8x1.Idx → Ideal .f32)
    = shapeCast S8x1 (Host.divf (bc 0x3F800000#32) (addf (V (Proc.devRef .tc main_v25) : S8.Idx → Ideal .f32) (bc 0x3727C5AC#32))) shapeCasts_S8_S8x1 := by
  after_results; rfl
theorem s14_v0 : StableHlo.after hostOps1_4 V (Proc.devRef .tc main_v0) = V (Proc.devRef .tc main_v0) := by
  after_results

/-- The reshape of the second launch's result back to five axes. -/
theorem s2_v33 : (StableHlo.after hostOps2 V (Proc.devRef .tc main_v33) : S8x32x64x64x64.Idx → Ideal .f32)
    = shapeCast S8x32x64x64x64 (V (Proc.devRef .tc main_v32)) shapeCasts_S8x32x262144_S8x32x64x64x64 := by
  after_results; rfl

/-- No host operation writes γ or β. -/
theorem s0_arg {r : Ref sig .tc} (h : r = main_arg1 ∨ r = main_arg2) :
    StableHlo.after hostOps0 V (Proc.devRef .tc r) = V (Proc.devRef .tc r) := by
  rcases h with rfl | rfl <;> after_results
theorem s1_arg {r : Ref sig .tc} (h : r = main_arg1 ∨ r = main_arg2) :
    StableHlo.after hostOps1 V (Proc.devRef .tc r) = V (Proc.devRef .tc r) := by
  rcases h with rfl | rfl <;> after_results
theorem s11_arg {r : Ref sig .tc} (h : r = main_arg1 ∨ r = main_arg2) :
    StableHlo.after hostOps1_1 V (Proc.devRef .tc r) = V (Proc.devRef .tc r) := by
  rcases h with rfl | rfl <;> after_results
theorem s12_arg {r : Ref sig .tc} (h : r = main_arg1 ∨ r = main_arg2) :
    StableHlo.after hostOps1_2 V (Proc.devRef .tc r) = V (Proc.devRef .tc r) := by
  rcases h with rfl | rfl <;> after_results
theorem s13_arg {r : Ref sig .tc} (h : r = main_arg1 ∨ r = main_arg2) :
    StableHlo.after hostOps1_3 V (Proc.devRef .tc r) = V (Proc.devRef .tc r) := by
  rcases h with rfl | rfl <;> after_results
theorem s14_arg {r : Ref sig .tc} (h : r = main_arg1 ∨ r = main_arg2) :
    StableHlo.after hostOps1_4 V (Proc.devRef .tc r) = V (Proc.devRef .tc r) := by
  rcases h with rfl | rfl <;> after_results

end Stretches

/-! ## The named vectors read at a sample -/

section Reads
variable (s : S8x3.Idx → Ideal .f32) (b : Fin 8)

/-- Entry b of a length-8 vector reshaped to a column is entry (b, 0) of the column, and back. -/
theorem col_apply (v : S8.Idx → Ideal .f32) :
    shapeCast S8x1 v shapeCasts_S8_S8x1 (ix2 b (0 : Fin 1)) = v (ix1 b) :=
  shapeCast_apply v shapeCasts_S8_S8x1 (ix2 b (0 : Fin 1)) (ix1 b) (by
    rw [Shape.rowMajor_val_one, Shape.rowMajor_val_two]
    show b.val = b.val * 1 + 0
    omega)
theorem uncol_apply (v : S8x1.Idx → Ideal .f32) :
    shapeCast S8 v shapeCasts_S8x1_S8 (ix1 b) = v (ix2 b (0 : Fin 1)) :=
  shapeCast_apply v shapeCasts_S8x1_S8 (ix1 b) (ix2 b (0 : Fin 1)) (by
    rw [Shape.rowMajor_val_one, Shape.rowMajor_val_two]
    show b.val * 1 + 0 = b.val
    omega)

/-- Column j of the statistics array at sample b is its entry (b, j). -/
theorem cntV_apply : cntV s (ix1 b) = s (ix2 b (0 : Fin 3)) := by
  unfold cntV
  rw [uncol_apply]
  exact extractStridedSlice_apply _ s _ (ix2 b (0 : Fin 1)) (ix2 b (0 : Fin 3)) (fun a => by
    match a with
    | ⟨0, _⟩ => show b.val = 0 + b.val; omega
    | ⟨1, _⟩ => rfl)
theorem smV_apply : smV s (ix1 b) = s (ix2 b (1 : Fin 3)) := by
  unfold smV
  rw [uncol_apply]
  exact extractStridedSlice_apply _ s _ (ix2 b (0 : Fin 1)) (ix2 b (1 : Fin 3)) (fun a => by
    match a with
    | ⟨0, _⟩ => show b.val = 0 + b.val; omega
    | ⟨1, _⟩ => rfl)
theorem sqV_apply : sqV s (ix1 b) = s (ix2 b (2 : Fin 3)) := by
  unfold sqV
  rw [uncol_apply]
  exact extractStridedSlice_apply _ s _ (ix2 b (0 : Fin 1)) (ix2 b (2 : Fin 3)) (fun a => by
    match a with
    | ⟨0, _⟩ => show b.val = 0 + b.val; omega
    | ⟨1, _⟩ => rfl)

/-- The guarded mean at a sample is the scalar mean of its count and sum: every operation acts entry by entry and
    each constant vector holds its word at every sample. -/
theorem meanV_apply : meanV s (ix1 b) = Spec.mean (cntV s (ix1 b)) (smV s (ix1 b)) := rfl
/-- The guarded standard deviation at a sample, likewise. -/
theorem stdV_apply : stdV s (ix1 b) = Spec.std (cntV s (ix1 b)) (smV s (ix1 b)) (sqV s (ix1 b)) := rfl
/-- The reciprocal at a sample. -/
theorem invV_apply : invV s (ix1 b)
    = FloatOps.hostDivf Spec.one (FloatOps.addf (Spec.std (cntV s (ix1 b)) (smV s (ix1 b)) (sqV s (ix1 b))) Spec.eps) := rfl

end Reads

/-! ## The contents at each boundary -/

variable (m : (ℓ : Loc nD τ sig) → Buf (Elt Ideal) ℓ) (ρ : Dev nD → PrngReg)

theorem W3_v3 (c : Dev nD) : (W3 m ρ c (Proc.devRef .tc main_v3) : S8.Idx → Ideal .f32) = cntV (st m ρ c) := s1_v3 (W2 m ρ c)
theorem W3_v7 (c : Dev nD) : (W3 m ρ c (Proc.devRef .tc main_v7) : S8.Idx → Ideal .f32) = sqV (st m ρ c) := s1_v7 (W2 m ρ c)
theorem W3_v9 (c : Dev nD) : (W3 m ρ c (Proc.devRef .tc main_v9) : IVec S8 1) = gtV (st m ρ c) := s1_v9 (W2 m ρ c)
theorem W3_v12 (c : Dev nD) : (W3 m ρ c (Proc.devRef .tc main_v12) : S8.Idx → Ideal .f32) = quoV (st m ρ c) := s1_v12 (W2 m ρ c)
theorem W3_cst1 (c : Dev nD) : (W3 m ρ c (Proc.devRef .tc main_cst_1) : S_.Idx → Ideal .f32) = constant (F := Ideal) S_ .f32 0x00000000#32 :=
  s1_cst1 (W2 m ρ c)

theorem W4_v13 (c : Dev nD) : (W4 m ρ c (Proc.devRef .tc main_v13) : S8.Idx → Ideal .f32) = meanV (st m ρ c) :=
  (s11_v13 (W3 m ρ c)).trans (by rw [W3_v9, W3_v12, W3_cst1]; rfl)
theorem W4_v3 (c : Dev nD) : (W4 m ρ c (Proc.devRef .tc main_v3) : S8.Idx → Ideal .f32) = cntV (st m ρ c) :=
  (s11_v3 (W3 m ρ c)).trans (W3_v3 m ρ c)
theorem W4_v7 (c : Dev nD) : (W4 m ρ c (Proc.devRef .tc main_v7) : S8.Idx → Ideal .f32) = sqV (st m ρ c) :=
  (s11_v7 (W3 m ρ c)).trans (W3_v7 m ρ c)
theorem W4_v9 (c : Dev nD) : (W4 m ρ c (Proc.devRef .tc main_v9) : IVec S8 1) = gtV (st m ρ c) :=
  (s11_v9 (W3 m ρ c)).trans (W3_v9 m ρ c)

theorem W5_v24 (c : Dev nD) : (W5 m ρ c (Proc.devRef .tc main_v24) : S8.Idx → Ideal .f32) = rootV (st m ρ c) :=
  (s12_v24 (W4 m ρ c)).trans (by rw [W4_v3, W4_v7, W4_v13]; rfl)
theorem W5_cst5 (c : Dev nD) : (W5 m ρ c (Proc.devRef .tc main_cst_5) : S_.Idx → Ideal .f32) = constant (F := Ideal) S_ .f32 0x3F800000#32 :=
  s12_cst5 (W4 m ρ c)
theorem W5_v13 (c : Dev nD) : (W5 m ρ c (Proc.devRef .tc main_v13) : S8.Idx → Ideal .f32) = meanV (st m ρ c) :=
  (s12_v13 (W4 m ρ c)).trans (W4_v13 m ρ c)
theorem W5_v9 (c : Dev nD) : (W5 m ρ c (Proc.devRef .tc main_v9) : IVec S8 1) = gtV (st m ρ c) :=
  (s12_v9 (W4 m ρ c)).trans (W4_v9 m ρ c)

theorem W6_v25 (c : Dev nD) : (W6 m ρ c (Proc.devRef .tc main_v25) : S8.Idx → Ideal .f32) = stdV (st m ρ c) :=
  (s13_v25 (W5 m ρ c)).trans (by rw [W5_v9, W5_v24, W5_cst5]; rfl)
theorem W6_v13 (c : Dev nD) : (W6 m ρ c (Proc.devRef .tc main_v13) : S8.Idx → Ideal .f32) = meanV (st m ρ c) :=
  (s13_v13 (W5 m ρ c)).trans (W5_v13 m ρ c)

/-- The two columns the second launch reads, as the named vectors of the statistics array. -/
theorem V7_meanV (c : Dev nD) : (V7 m ρ c main_v30 : S8x1.Idx → Ideal .f32) = shapeCast S8x1 (meanV (st m ρ c)) shapeCasts_S8_S8x1 :=
  (s14_v30 (W6 m ρ c)).trans (by rw [W6_v13])
theorem V7_invV (c : Dev nD) : (V7 m ρ c main_v31 : S8x1.Idx → Ideal .f32) = shapeCast S8x1 (invV (st m ρ c)) shapeCasts_S8_S8x1 :=
  (s14_v31 (W6 m ρ c)).trans (by rw [W6_v25]; rfl)

/-! ## The statements -/

theorem V7_mean (c : Dev nD) (b : Fin 8) :
    V7 m ρ c main_v30 (ix2 b (0 : Fin 1)) = Spec.mean (st m ρ c (ix2 b (0 : Fin 3))) (st m ρ c (ix2 b (1 : Fin 3))) := by
  rw [V7_meanV, col_apply, meanV_apply, cntV_apply, smV_apply]

theorem V7_inv (c : Dev nD) (b : Fin 8) :
    V7 m ρ c main_v31 (ix2 b (0 : Fin 1))
      = FloatOps.hostDivf Spec.one (FloatOps.addf (Spec.std (st m ρ c (ix2 b (0 : Fin 3))) (st m ρ c (ix2 b (1 : Fin 3))) (st m ρ c (ix2 b (2 : Fin 3)))) Spec.eps) := by
  rw [V7_invV, col_apply, invV_apply, cntV_apply, smV_apply, sqV_apply]

/-- The flattened input reaches the second launch as the first stretch wrote it: the first launch reads it through an
    input window and no later host operation writes it. -/
theorem V7_x (c : Dev nD) : V7 m ρ c main_v0 = V1 m ρ c main_v0 :=
  calc W7 m ρ c (Proc.devRef .tc main_v0)
    _ = W6 m ρ c (Proc.devRef .tc main_v0) := s14_v0 (W6 m ρ c)
    _ = W5 m ρ c (Proc.devRef .tc main_v0) := s13_v0 (W5 m ρ c)
    _ = W4 m ρ c (Proc.devRef .tc main_v0) := s12_v0 (W4 m ρ c)
    _ = W3 m ρ c (Proc.devRef .tc main_v0) := s11_v0 (W3 m ρ c)
    _ = W2 m ρ c (Proc.devRef .tc main_v0) := s1_v0 (W2 m ρ c)
    _ = V1 m ρ c main_v0 := (W2_arr m ρ c 0).trans (((dat0 (V1 m ρ) c).arrAt_in 0 rfl _).trans (A_eq0 (V1 m ρ) c 0))

/-- The flattened input is the input reshaped. -/
theorem V1_x (c : Dev nD) : V1 m ρ c main_v0 = shapeCast S8x32x262144 (m ((c : Thread nD τ).loc main_arg0)) shapeCasts_S8x32x64x64x64_S8x32x262144 :=
  s0_v0 (W0 m ρ c)

/-- γ and β reach the second launch as launched: no host operation writes them and the first launch does not touch them. -/
theorem arg_W7 (c : Dev nD) {r : Ref sig .tc} (h : r = main_arg1 ∨ r = main_arg2) :
    W7 m ρ c (Proc.devRef .tc r) = m ((c : Thread nD τ).loc r) :=
  calc W7 m ρ c (Proc.devRef .tc r)
    _ = W6 m ρ c (Proc.devRef .tc r) := s14_arg (W6 m ρ c) h
    _ = W5 m ρ c (Proc.devRef .tc r) := s13_arg (W5 m ρ c) h
    _ = W4 m ρ c (Proc.devRef .tc r) := s12_arg (W4 m ρ c) h
    _ = W3 m ρ c (Proc.devRef .tc r) := s11_arg (W3 m ρ c) h
    _ = W2 m ρ c (Proc.devRef .tc r) := s1_arg (W2 m ρ c) h
    _ = W1 m ρ c (Proc.devRef .tc r) := W2_of_ne m ρ c r (by rcases h with rfl | rfl <;> decide)
    _ = W0 m ρ c (Proc.devRef .tc r) := s0_arg (W0 m ρ c) h
    _ = m ((c : Thread nD τ).loc r) := rfl

theorem V7_g (c : Dev nD) : V7 m ρ c main_arg1 = m ((c : Thread nD τ).loc main_arg1) := arg_W7 m ρ c (Or.inl rfl)
theorem V7_b (c : Dev nD) : V7 m ρ c main_arg2 = m ((c : Thread nD τ).loc main_arg2) := arg_W7 m ρ c (Or.inr rfl)

/-- The program's result is the second launch's result array reshaped to five axes. -/
theorem W9_out (c : Dev nD) : W9 m ρ c (Proc.devRef .tc main_v33)
    = shapeCast S8x32x64x64x64 ((dat1 (V7 m ρ) c).arrAt 5 cfg1.N) shapeCasts_S8x32x262144_S8x32x64x64x64 :=
  (s2_v33 (W8 m ρ c)).trans
    (congrArg (fun v : S8x32x262144.Idx → Ideal .f32 => shapeCast S8x32x64x64x64 v shapeCasts_S8x32x262144_S8x32x64x64x64)
      (W8_arr m ρ c 5))

end Cert.KernelIdeal.KHost

end
-- ==== Proof.SpecLaw.lean ====
/-
  The two forms of the result agree.

  Both divide by d = std + ε. The deviation is a square root of a number clamped at 0 from below, or 1, so it is not
  negative, and ε = f32(1e-5) is a positive real: d is positive, in particular not zero (it may be +∞). Off zero the
  quotient a / d is the product a · d⁻¹, so 1 / d = 1 · d⁻¹ = d⁻¹ and
      (γ · (x − μ)) · (1 / d) = (γ · (x − μ)) · d⁻¹ = γ · ((x − μ) · d⁻¹) = γ · ((x − μ) / d)
  by associativity of the product on the extended reals (which holds at the infinities too).
-/
import proofs.«143069_j61598420959415_1_alg».proof.Proof.Spec
import Idealize.ShloMosaic.PureOps.Ideal.Laws

noncomputable section

namespace Cert.Spec

open Idealize.ShloMosaic Idealize.ShloMosaic.ValueIdx

/-- The word 1.0 denotes 1, -/
theorem one_eq : (one : EReal) = 1 := by
  show Ideal.ofBits .f32 0x3F800000#32 = 1
  simp [Ideal.ofBits, Ideal.ieee, -EReal.coe_mul]; norm_num

/-- and ε's word a positive real. -/
theorem eps_pos : (0 : EReal) < eps := by
  show (0 : EReal) < Ideal.ofBits .f32 0x3727C5AC#32
  simp [Ideal.ofBits, Ideal.ieee, -EReal.coe_mul]

/-- The square root of a number that is not negative is not negative (+∞ included). -/
theorem sqrt_nonneg {y : EReal} (hy : 0 ≤ y) : 0 ≤ Ideal.sqrt y := by
  induction y using EReal.rec with
  | bot => exact absurd hy (by simp)
  | top => simp
  | coe r =>
    have hr : ¬ r < 0 := not_lt.mpr (EReal.coe_nonneg.mp hy)
    rw [Ideal.sqrt_coe, if_neg hr]
    exact EReal.coe_nonneg.mpr (Real.sqrt_nonneg r)

/-- The deviation is not negative: a square root of a number clamped at 0, or 1. -/
theorem std_nonneg (n s q : Ideal .f32) : (0 : EReal) ≤ std n s q := by
  unfold std
  generalize FloatOps.cmpf .ogt n z0 = bit
  rcases BitVec.eq_zero_or_eq_one bit with h | h
  · rw [h, select_zero, one_eq]; exact zero_le_one
  · rw [h, select_one]
    show 0 ≤ Ideal.sqrt (max _ (Ideal.ofBits .f32 0x00000000#32))
    rw [Ideal.ofBits_zero_f32]
    exact sqrt_nonneg (le_max_right _ _)

/-- So the denominator std + ε is positive. -/
theorem den_pos (x : A5.Idx → Ideal .f32) (b : Fin 8) : (0 : EReal) < den x b := by
  unfold den
  show (0 : EReal) < std _ _ _ + eps
  exact lt_of_lt_of_le eps_pos (le_add_of_nonneg_left (std_nonneg _ _ _))

/-- The product with the reciprocal is the quotient. -/
theorem outK_eq_outR : outK = outR := by
  funext x γ β i
  unfold outK outR
  have hd : den x (i 0) ≠ 0 := (den_pos x (i 0)).ne'
  show γ _ * (x i - mu x _) * Ideal.div one (den x _) + β _ = γ _ * Ideal.div (x i - mu x _) (den x _) + β _
  unfold Ideal.div
  rw [if_neg hd, if_neg hd, one_eq, one_mul, mul_assoc]

end Cert.Spec

end
-- ==== Proof.KBridge.lean ====
/-
  From the kernel program's intermediate arrays to the specification.

  The program works on the flattened input x2 = reshape x : [8, 32, 262144]; row-major, position 4096·t + s of the
  flat axis is (t, s / 64, s % 64) of the three spatial axes, so x2 at tile t, place s is the specification's entry
  `at5 b c t s` (`flat_at3`), and the result's reshape back reads the flat position 4096·d + 64·h + w. With that the
  statistics array's three columns are the specification's count, sum and sum of squares: the sum and the sum of squares
  term by term, the count after moving the factor 32 out of the sum over the tiles — each tile's count is a sum of
  zeros and ones, not negative, and on the extended reals a product distributes over a sum of numbers that are not
  negative (`sum_mul_of_nonneg`).
-/
import proofs.«143069_j61598420959415_1_alg».proof.Proof.KDefs
import proofs.«143069_j61598420959415_1_alg».proof.Proof.SpecLaw
import Idealize.ShloMosaic.Lib.Pipeline.Value
import Idealize.ShloMosaic.Lib.ValueIdx

noncomputable section

open Idealize.ShloMosaic Idealize.ShloMosaic.TcCoe Idealize.ShloMosaic.ValueIdx
open scoped BigOperators

namespace Cert.KernelIdeal.KBridge

open Cert.KernelIdeal Cert.KernelIdeal.Gen Cert.KernelIdeal.KDefs

/-- On the extended reals a common factor leaves a sum of numbers that are not negative. -/
theorem sum_mul_of_nonneg {ι : Type} (S : Finset ι) (a : ι → EReal) (w : EReal) (ha : ∀ i, 0 ≤ a i) :
    ∑ i ∈ S, a i * w = (∑ i ∈ S, a i) * w := by
  classical
  induction S using Finset.induction_on with
  | empty => simp
  | insert i S hi ih =>
    rw [Finset.sum_insert hi, Finset.sum_insert hi, ih, EReal.right_distrib_of_nonneg (ha i) (Finset.sum_nonneg fun j _ => ha j)]

/-- A mask entry is 0 or 1: not negative. -/
theorem keep_nonneg (v : Ideal .f32) : (0 : EReal) ≤ Spec.keep v := by
  unfold Spec.keep
  show (0 : EReal) ≤ (((Ideal.cmp .une v _).toNat : ℝ) : EReal)
  exact EReal.coe_nonneg.mpr (Nat.cast_nonneg _)

variable (x : S8x32x64x64x64.Idx → Ideal .f32)

/-- The flattened input. -/
abbrev flat : S8x32x262144.Idx → Ideal .f32 := shapeCast S8x32x262144 x shapeCasts_S8x32x64x64x64_S8x32x262144

/-- Place s of tile t of the flattened input is the specification's entry. -/
theorem flat_at3 (b : Fin 8) (c : Fin 32) (t : Fin 64) (s : Fin 4096) : flat x (at3 b c t s) = x (Spec.at5 b c t s) := by
  unfold at3 Spec.at5
  refine shapeCast_apply x _ _ _ ?_
  rw [Shape.rowMajor_val_five, Shape.rowMajor_val_three]
  show ((((b.val * 32 + c.val) * 64 + t.val) * 64 + s.val / 64) * 64 + s.val % 64) = (b.val * 32 + c.val) * 262144 + (4096 * t.val + s.val)
  have := s.isLt
  omega

theorem stats_cnt (b : Fin 8) : statsOf (flat x) (ix2 b (0 : Fin 3)) = Spec.cnt x b := by
  unfold statsOf Spec.cnt Spec.cntSum
  show (∑ t : Fin 64, (∑ s : Fin 4096, Spec.keep (flat x (at3 b 0 t s))) * Spec.w32) = (∑ t : Fin 64, ∑ s : Fin 4096, Spec.keep (x (Spec.at5 b 0 t s))) * Spec.w32
  simp only [flat_at3]
  exact sum_mul_of_nonneg _ _ _ fun t => Finset.sum_nonneg fun s _ => keep_nonneg _

theorem stats_sm (b : Fin 8) : statsOf (flat x) (ix2 b (1 : Fin 3)) = Spec.sm x b := by
  unfold statsOf Spec.sm
  show (∑ t : Fin 64, ∑ c : Fin 32, ∑ s : Fin 4096, flat x (at3 b c t s) * Spec.keep (flat x (at3 b 0 t s))) = _
  simp only [flat_at3]

theorem stats_sq (b : Fin 8) : statsOf (flat x) (ix2 b (2 : Fin 3)) = Spec.sq x b := by
  unfold statsOf Spec.sq
  show (∑ t : Fin 64, ∑ c : Fin 32, ∑ s : Fin 4096, (flat x (at3 b c t s) * flat x (at3 b c t s)) * Spec.keep (flat x (at3 b 0 t s))) = _
  simp only [flat_at3]

/-- The second launch's array, reshaped back, is the specification's result once its mean and reciprocal columns are
    the specification's. -/
theorem unflat_norm (γ β : S32.Idx → Ideal .f32) (mean inv : S8x1.Idx → Ideal .f32)
    (hmean : ∀ b : Fin 8, mean (ix2 b (0 : Fin 1)) = Spec.mu x b)
    (hinv : ∀ b : Fin 8, inv (ix2 b (0 : Fin 1)) = FloatOps.hostDivf Spec.one (Spec.den x b)) :
    shapeCast S8x32x64x64x64 (normOf (flat x) mean inv γ β) shapeCasts_S8x32x262144_S8x32x64x64x64 = Spec.outK x γ β := by
  funext i
  obtain ⟨b, c, d, h, w, rfl⟩ : ∃ (b : Fin 8) (c : Fin 32) (d h w : Fin 64), i = ix5 b c d h w :=
    ⟨i 0, i 1, i 2, i 3, i 4, eq_ix5 i⟩
  have hj : 4096 * d.val + 64 * h.val + w.val < 262144 := by have := d.isLt; have := h.isLt; have := w.isLt; omega
  rw [shapeCast_apply _ shapeCasts_S8x32x262144_S8x32x64x64x64 (ix5 b c d h w) (ix3 b c (⟨4096 * d.val + 64 * h.val + w.val, hj⟩ : Fin 262144))
    (by rw [Shape.rowMajor_val_five, Shape.rowMajor_val_three]
        show (b.val * 32 + c.val) * 262144 + (4096 * d.val + 64 * h.val + w.val) = ((((b.val * 32 + c.val) * 64 + d.val) * 64 + h.val) * 64 + w.val)
        omega)]
  have hx : flat x (ix3 b c (⟨4096 * d.val + 64 * h.val + w.val, hj⟩ : Fin 262144)) = x (ix5 b c d h w) :=
    shapeCast_apply x _ _ _ (by
      rw [Shape.rowMajor_val_five, Shape.rowMajor_val_three]
      show ((((b.val * 32 + c.val) * 64 + d.val) * 64 + h.val) * 64 + w.val) = (b.val * 32 + c.val) * 262144 + (4096 * d.val + 64 * h.val + w.val)
      omega)
  unfold normOf Spec.outK
  show FloatOps.addf (FloatOps.mulf (FloatOps.mulf (γ (ix1 c)) (FloatOps.subf (flat x _) (mean (ix2 b (0 : Fin 1))))) (inv (ix2 b (0 : Fin 1)))) (β (ix1 c)) = _
  rw [hx, hmean, hinv]

end Cert.KernelIdeal.KBridge

end
-- ==== Proof.RefValue.lean ====
/-
  The reference program's result is the specification's function `outR`.

  The program takes three sums over the axes 1, 2, 3, 4 of a five-axis array into a vector indexed by the sample.
  Such a sum at sample b adds the entries whose coordinate 0 is b. Those indices are exactly the entries
  (b, c, t, s / 64, s % 64) for t < 64, c < 32, s < 4096: the map (t, c, s) ↦ that index is one-to-one (t and c are
  coordinates, and s = 64 · (s / 64) + s % 64) and reaches every index whose coordinate 0 is b (take t and c from the
  coordinates 2 and 1, and s = 64 · h + w from the coordinates 3 and 4). So the sum is the specification's triple sum
  over t, c, s. The count's array has one channel, and its sum is the double sum over t, s.

  Inside the sums the operand is a product with the mask, and the mask at (b, c, t, h, w) reads channel 0 of x at the
  same sample and position. What remains of the program acts entry by entry, on the per-sample vectors and then on
  the full shape, where sample b's mean and deviation are read at coordinate 0 and γ, β at coordinate 1.
-/
import proofs.«143069_j61598420959415_1_alg».proof.Proof.RefRead
import proofs.«143069_j61598420959415_1_alg».proof.Proof.Spec
import Idealize.ShloMosaic.PureOps.Ideal.Laws
import Idealize.ShloMosaic.Lib.ValueIdx
import Mathlib.Data.Fintype.BigOperators
import Mathlib.Algebra.BigOperators.Group.Finset.Basic

noncomputable section

open scoped BigOperators

namespace Cert.ReferenceIdeal.RefValue
open Cert.ReferenceIdeal
open Cert.ReferenceIdeal.ReadP Idealize.ShloMosaic Idealize.ShloMosaic.ValueIdx

/-! ## The indices a sum over the axes 1, 2, 3, 4 adds up -/

/-- Entry s of slab t of the one-channel array, sample b. -/
def at1 (b : Fin 8) (t : Fin 64) (s : Fin 4096) : S8x1x64x64x64.Idx :=
  ix5 b (0 : Fin 1) t (⟨s.val / 64, by have := s.isLt; omega⟩ : Fin 64) (⟨s.val % 64, by omega⟩ : Fin 64)

/-- Dropping the axes 1, 2, 3, 4 of (b, c, d, e, w) leaves b: on the full shape, -/
theorem drop5 (h : S8x32x64x64x64.ReducesTo [1, 2, 3, 4] S8) (b : Fin 8) (c : Fin 32) (d e w : Fin 64) :
    h.drop (ix5 b c d e w) = ix1 b := by
  funext a
  match a with
  | ⟨0, _⟩ => rfl

/-- and on the one-channel shape. -/
theorem drop1 (h : S8x1x64x64x64.ReducesTo [1, 2, 3, 4] S8) (b : Fin 8) (c : Fin 1) (d e w : Fin 64) :
    h.drop (ix5 b c d e w) = ix1 b := by
  funext a
  match a with
  | ⟨0, _⟩ => rfl

/-- The position 64 · e + w of slab d is the entry (d, e, w): on the full shape, -/
theorem at5_mk (b : Fin 8) (c : Fin 32) (d e w : Fin 64) :
    Cert.Spec.at5 b c d (⟨64 * e.val + w.val, by have := e.isLt; have := w.isLt; omega⟩ : Fin 4096) = ix5 b c d e w := by
  funext a
  match a with
  | ⟨0, _⟩ => rfl
  | ⟨1, _⟩ => rfl
  | ⟨2, _⟩ => rfl
  | ⟨3, _⟩ => exact Fin.ext (by show (64 * e.val + w.val) / 64 = e.val; have := w.isLt; omega)
  | ⟨4, _⟩ => exact Fin.ext (by show (64 * e.val + w.val) % 64 = w.val; have := w.isLt; omega)

/-- and on the one-channel shape, whose channel coordinate can only be 0. -/
theorem at1_mk (b : Fin 8) (c : Fin 1) (d e w : Fin 64) :
    at1 b d (⟨64 * e.val + w.val, by have := e.isLt; have := w.isLt; omega⟩ : Fin 4096) = ix5 b c d e w := by
  funext a
  match a with
  | ⟨0, _⟩ => rfl
  | ⟨1, _⟩ => exact Fin.ext (by show 0 = c.val; have := c.isLt; omega)
  | ⟨2, _⟩ => rfl
  | ⟨3, _⟩ => exact Fin.ext (by show (64 * e.val + w.val) / 64 = e.val; have := w.isLt; omega)
  | ⟨4, _⟩ => exact Fin.ext (by show (64 * e.val + w.val) % 64 = w.val; have := w.isLt; omega)

/-- (t, c, s) ↦ entry s of slab t, channel c, of sample b: one-to-one, since t and c are coordinates and
    s = 64 · (s / 64) + s % 64. -/
def emb5 (b : Fin 8) : Fin 64 × Fin 32 × Fin 4096 ↪ S8x32x64x64x64.Idx where
  toFun p := Cert.Spec.at5 b p.2.1 p.1 p.2.2
  inj' := by
    rintro ⟨t, c, s⟩ ⟨t', c', s'⟩ h
    have h1 : c = c' := congrFun h 1
    have h2 : t = t' := congrFun h 2
    have h3 : s.val / 64 = s'.val / 64 := congrArg Fin.val (congrFun h 3)
    have h4 : s.val % 64 = s'.val % 64 := congrArg Fin.val (congrFun h 4)
    have h5 : s = s' := Fin.ext (by omega)
    subst h1 h2 h5
    rfl

/-- (t, s) ↦ entry s of slab t of sample b in the one-channel array: one-to-one for the same reason. -/
def emb1 (b : Fin 8) : Fin 64 × Fin 4096 ↪ S8x1x64x64x64.Idx where
  toFun p := at1 b p.1 p.2
  inj' := by
    rintro ⟨t, s⟩ ⟨t', s'⟩ h
    have h2 : t = t' := congrFun h 2
    have h3 : s.val / 64 = s'.val / 64 := congrArg Fin.val (congrFun h 3)
    have h4 : s.val % 64 = s'.val % 64 := congrArg Fin.val (congrFun h 4)
    have h5 : s = s' := Fin.ext (by omega)
    subst h2 h5
    rfl

/-- The indices of the full shape that drop to b are the entries of sample b. -/
theorem filter5 (h : S8x32x64x64x64.ReducesTo [1, 2, 3, 4] S8) (b : Fin 8) :
    Finset.univ.filter (fun i : S8x32x64x64x64.Idx => h.drop i = ix1 b) = Finset.univ.map (emb5 b) := by
  ext i
  obtain ⟨b', c, d, e, w, rfl⟩ : ∃ (b' : Fin 8) (c : Fin 32) (d e w : Fin 64), i = ix5 b' c d e w :=
    ⟨i 0, i 1, i 2, i 3, i 4, eq_ix5 i⟩
  simp only [Finset.mem_filter, Finset.mem_univ, true_and, Finset.mem_map]
  rw [drop5]
  constructor
  · intro hb
    have hb' : b' = b := congrFun hb 0
    subst hb'
    exact ⟨(d, c, (⟨64 * e.val + w.val, by have := e.isLt; have := w.isLt; omega⟩ : Fin 4096)), at5_mk b' c d e w⟩
  · rintro ⟨⟨t, c', s⟩, hp⟩
    have hb : b = b' := congrFun hp 0
    rw [hb]

/-- The indices of the one-channel shape that drop to b are the positions of sample b. -/
theorem filter1 (h : S8x1x64x64x64.ReducesTo [1, 2, 3, 4] S8) (b : Fin 8) :
    Finset.univ.filter (fun i : S8x1x64x64x64.Idx => h.drop i = ix1 b) = Finset.univ.map (emb1 b) := by
  ext i
  obtain ⟨b', c, d, e, w, rfl⟩ : ∃ (b' : Fin 8) (c : Fin 1) (d e w : Fin 64), i = ix5 b' c d e w :=
    ⟨i 0, i 1, i 2, i 3, i 4, eq_ix5 i⟩
  simp only [Finset.mem_filter, Finset.mem_univ, true_and, Finset.mem_map]
  rw [drop1]
  constructor
  · intro hb
    have hb' : b' = b := congrFun hb 0
    subst hb'
    exact ⟨(d, (⟨64 * e.val + w.val, by have := e.isLt; have := w.isLt; omega⟩ : Fin 4096)), at1_mk b' c d e w⟩
  · rintro ⟨⟨t, s⟩, hp⟩
    have hb : b = b' := congrFun hp 0
    rw [hb]

/-- So a sum over the indices that drop to b is the triple sum over slabs, channels and positions, -/
theorem sum5 (h : S8x32x64x64x64.ReducesTo [1, 2, 3, 4] S8) (f : S8x32x64x64x64.Idx → EReal) (b : Fin 8) :
    ∑ i ∈ Finset.univ.filter (fun i : S8x32x64x64x64.Idx => h.drop i = ix1 b), f i
      = ∑ t : Fin 64, ∑ c : Fin 32, ∑ s : Fin 4096, f (Cert.Spec.at5 b c t s) := by
  rw [filter5, Finset.sum_map, Fintype.sum_prod_type]
  refine Finset.sum_congr rfl fun t _ => ?_
  rw [Fintype.sum_prod_type]
  rfl

/-- and on the one-channel shape the double sum over slabs and positions. -/
theorem sum1 (h : S8x1x64x64x64.ReducesTo [1, 2, 3, 4] S8) (f : S8x1x64x64x64.Idx → EReal) (b : Fin 8) :
    ∑ i ∈ Finset.univ.filter (fun i : S8x1x64x64x64.Idx => h.drop i = ix1 b), f i
      = ∑ t : Fin 64, ∑ s : Fin 4096, f (at1 b t s) := by
  rw [filter1, Finset.sum_map, Fintype.sum_prod_type]
  rfl

/-! ## The mask and the three sums -/

/-- The one-channel position (b, t, s) is read from channel 0 of x; -/
theorem idx0_at1 (b : Fin 8) (t : Fin 64) (s : Fin 4096) : idx_main_v0 (at1 b t s) = Cert.Spec.at5 b 0 t s := by
  funext a
  match a with
  | ⟨0, _⟩ => rfl
  | ⟨1, _⟩ => rfl
  | ⟨2, _⟩ => rfl
  | ⟨3, _⟩ => rfl
  | ⟨4, _⟩ => rfl

/-- the mask of the full shape at (b, c, t, s) is the one-channel mask at (b, t, s), in both of its copies. -/
theorem idx7_at5 (b : Fin 8) (c : Fin 32) (t : Fin 64) (s : Fin 4096) : idx_main_v7 (Cert.Spec.at5 b c t s) = at1 b t s := by
  funext a
  match a with
  | ⟨0, _⟩ => rfl
  | ⟨1, _⟩ => rfl
  | ⟨2, _⟩ => rfl
  | ⟨3, _⟩ => rfl
  | ⟨4, _⟩ => rfl

theorem idx11_at5 (b : Fin 8) (c : Fin 32) (t : Fin 64) (s : Fin 4096) : idx_main_v11 (Cert.Spec.at5 b c t s) = at1 b t s :=
  idx7_at5 b c t s

/-- The mask is 1 where channel 0 is not zero. -/
theorem mask_at (x : Cert.Spec.A5.Idx → Ideal .f32) (j : S8x1x64x64x64.Idx) :
    val_main_v3 (F := Ideal) x j = Cert.Spec.keep (x (idx_main_v0 j)) := by
  rw [val_main_v3_apply, val_main_v2_apply, val_main_v0_apply, val_main_v1_apply]
  rfl

/-- The count: kept positions, times 32. -/
theorem cnt_eq (x : Cert.Spec.A5.Idx → Ideal .f32) (b : Fin 8) :
    val_main_v6 (F := Ideal) x (ix1 b) = Cert.Spec.cnt x b := by
  rw [val_main_v6_apply, val_main_v5_apply]
  have hs : val_main_v4 (F := Ideal) x (ix1 b) = Cert.Spec.cntSum x b := by
    show Ideal.hostReduceAdd _ _ _ _ = _
    unfold Ideal.hostReduceAdd
    rw [sum1]
    show (Ideal.ofBits .f32 0x00000000#32 : EReal) + _ = _
    rw [Ideal.ofBits_zero_f32, zero_add]
    unfold Cert.Spec.cntSum
    refine Finset.sum_congr rfl fun t _ => Finset.sum_congr rfl fun s _ => ?_
    rw [mask_at, idx0_at1]
  rw [hs]
  rfl

/-- The kept sum. -/
theorem sm_eq (x : Cert.Spec.A5.Idx → Ideal .f32) (b : Fin 8) :
    val_main_v9 (F := Ideal) x (ix1 b) = Cert.Spec.sm x b := by
  show Ideal.hostReduceAdd _ _ _ _ = _
  unfold Ideal.hostReduceAdd
  rw [sum5]
  show (Ideal.ofBits .f32 0x00000000#32 : EReal) + _ = _
  rw [Ideal.ofBits_zero_f32, zero_add]
  unfold Cert.Spec.sm
  refine Finset.sum_congr rfl fun t _ => Finset.sum_congr rfl fun c _ => Finset.sum_congr rfl fun s _ => ?_
  rw [val_main_v8_apply, val_main_v7_apply, idx7_at5, mask_at, idx0_at1]
  rfl

/-- The kept sum of squares. -/
theorem sq_eq (x : Cert.Spec.A5.Idx → Ideal .f32) (b : Fin 8) :
    val_main_v13 (F := Ideal) x (ix1 b) = Cert.Spec.sq x b := by
  show Ideal.hostReduceAdd _ _ _ _ = _
  unfold Ideal.hostReduceAdd
  rw [sum5]
  show (Ideal.ofBits .f32 0x00000000#32 : EReal) + _ = _
  rw [Ideal.ofBits_zero_f32, zero_add]
  unfold Cert.Spec.sq
  refine Finset.sum_congr rfl fun t _ => Finset.sum_congr rfl fun c _ => Finset.sum_congr rfl fun s _ => ?_
  rw [val_main_v12_apply, val_main_v10_apply, val_main_v11_apply, idx11_at5, mask_at, idx0_at1]
  rfl

/-! ## The per-sample mean and deviation -/

/-- Sample b's mean, with its guard for an empty selection. -/
theorem mean_eq (x : Cert.Spec.A5.Idx → Ideal .f32) (b : Fin 8) :
    val_main_v19 (F := Ideal) x (ix1 b) = Cert.Spec.mu x b := by
  rw [val_main_v19_apply, val_main_v15_apply, val_main_v18_apply, val_main_v17_apply, val_main_v14_apply,
    val_main_v16_apply, val_main_call0_v1_apply, cnt_eq, sm_eq]
  rfl

/-- Sample b's deviation, with its guard. -/
theorem std_eq (x : Cert.Spec.A5.Idx → Ideal .f32) (b : Fin 8) :
    val_main_v31 (F := Ideal) x (ix1 b) = Cert.Spec.std (Cert.Spec.cnt x b) (Cert.Spec.sm x b) (Cert.Spec.sq x b) := by
  rw [val_main_v31_apply, val_main_v15_apply, val_main_v30_apply, val_main_v29_apply, val_main_v27_apply,
    val_main_v22_apply, val_main_v21_apply, val_main_v20_apply, val_main_v26_apply, val_main_v24_apply,
    val_main_v14_apply, val_main_v28_apply, val_main_v23_apply, val_main_v25_apply, val_main_call1_v1_apply,
    mean_eq, cnt_eq, sq_eq]
  rfl

/-! ## The result -/

/-- At (b, c, d, e, w) the per-sample vectors are read at b -/
theorem idx32_33 (b : Fin 8) (c : Fin 32) (d e w : Fin 64) :
    idx_main_v32 (idx_main_v33 (ix5 b c d e w)) = ix1 b := by
  funext a
  match a with
  | ⟨0, _⟩ => exact Fin.ext (by show ((((b.val * 1 + 0) * 1 + 0) * 1 + 0) * 1 + 0) = b.val; omega)

theorem idx35_38 (b : Fin 8) (c : Fin 32) (d e w : Fin 64) :
    idx_main_v35 (idx_main_v38 (ix5 b c d e w)) = ix1 b := by
  funext a
  match a with
  | ⟨0, _⟩ => exact Fin.ext (by show ((((b.val * 1 + 0) * 1 + 0) * 1 + 0) * 1 + 0) = b.val; omega)

/-- and the per-channel vectors at c. -/
theorem idx40_41 (b : Fin 8) (c : Fin 32) (d e w : Fin 64) :
    idx_main_v40 (idx_main_v41 (ix5 b c d e w)) = ix1 c := by
  funext a
  match a with
  | ⟨0, _⟩ => exact Fin.ext (by show ((((0 * 32 + c.val) * 1 + 0) * 1 + 0) * 1 + 0) = c.val; omega)

theorem idx43_44 (b : Fin 8) (c : Fin 32) (d e w : Fin 64) :
    idx_main_v43 (idx_main_v44 (ix5 b c d e w)) = ix1 c := by
  funext a
  match a with
  | ⟨0, _⟩ => exact Fin.ext (by show ((((0 * 32 + c.val) * 1 + 0) * 1 + 0) * 1 + 0) = c.val; omega)

/-- The result at (b, c, d, e, w): γ[c] · ((x − mean b) / (deviation b + ε)) + β[c]. -/
theorem val_at (x : Cert.Spec.A5.Idx → Ideal .f32) (γ β : Cert.Spec.A1.Idx → Ideal .f32)
    (b : Fin 8) (c : Fin 32) (d e w : Fin 64) :
    val_main_v45 (F := Ideal) x γ β (ix5 b c d e w)
      = FloatOps.addf (FloatOps.mulf (γ (ix1 c))
          (FloatOps.hostDivf (FloatOps.subf (x (ix5 b c d e w)) (Cert.Spec.mu x b)) (Cert.Spec.den x b))) (β (ix1 c)) := by
  rw [val_main_v45_apply, val_main_v42_apply, val_main_v44_apply, val_main_v43_apply, val_main_v41_apply,
    val_main_v40_apply, val_main_v39_apply, val_main_v34_apply, val_main_v33_apply, val_main_v32_apply,
    val_main_v38_apply, val_main_v37_apply, val_main_v35_apply, val_main_v36_apply,
    idx43_44, idx40_41, idx32_33, idx35_38, mean_eq, std_eq]
  rfl

theorem val_eq (x : Cert.Spec.A5.Idx → Ideal .f32) (γ β : Cert.Spec.A1.Idx → Ideal .f32) :
    Cert.ReferenceIdeal.ReadP.val_main_v45 (F := Ideal) x γ β = Cert.Spec.outR x γ β := by
  funext i
  obtain ⟨b, c, d, e, w, rfl⟩ : ∃ (b : Fin 8) (c : Fin 32) (d e w : Fin 64), i = ix5 b c d e w :=
    ⟨i 0, i 1, i 2, i 3, i 4, eq_ix5 i⟩
  exact val_at x γ β b c d e w

end Cert.ReferenceIdeal.RefValue

end
-- ==== Proof.Claims.lean ====
/-
  The five claims.

  The kernel program's result buffer ends, at the ideal instance, at the specification's `outK` of the three
  arguments: the last reshape reads the second launch's array (`KHost.W9_out`), which is `normOf` of the flattened
  input, the mean and reciprocal columns and γ, β as that launch finds them (`KNorm.final1`); the host operations before
  it leave the flattened input and γ, β untouched and compute the two columns from the statistics array
  (`KHost.V7_…`), which the first launch leaves at `statsOf` of the flattened input (`KStats.final0`), whose columns
  are the specification's count, sum and sum of squares (`KBridge.stats_…`). The reference's result is `outR` of the
  same arguments (`RefValue.val_eq`), and `outK = outR` (`Spec.outK_eq_outR`). The ideal pass rewrote nothing, the
  kernel programs' frames are the generated ones, and the reference's frame is its run with the result dropped.
-/
import proofs.«143069_j61598420959415_1_alg».proof.Defs
import proofs.«143069_j61598420959415_1_alg».proof.Proof.Gen.Kernel.Frame
import proofs.«143069_j61598420959415_1_alg».proof.Proof.Gen.KernelIdeal.Frame
import proofs.«143069_j61598420959415_1_alg».proof.Proof.Gen.ReferenceIdeal
import proofs.«143069_j61598420959415_1_alg».proof.Proof.Gen.Pre_finite_inputs
import proofs.«143069_j61598420959415_1_alg».proof.Proof.KRun
import proofs.«143069_j61598420959415_1_alg».proof.Proof.KStats
import proofs.«143069_j61598420959415_1_alg».proof.Proof.KNorm
import proofs.«143069_j61598420959415_1_alg».proof.Proof.KHost
import proofs.«143069_j61598420959415_1_alg».proof.Proof.KBridge
import proofs.«143069_j61598420959415_1_alg».proof.Proof.RefValue

noncomputable section

open Idealize.ShloMosaic Idealize.ShloMosaic.TcCoe Idealize.SL.Sem Idealize.ShloMosaic.ValueIdx

namespace Cert.KernelIdeal.KResult

open Cert.KernelIdeal Cert.KernelIdeal.Gen Cert.KernelIdeal.KDefs

variable (m : (ℓ : Loc nD τ sig) → Buf (Elt Ideal) ℓ) (ρ : Dev nD → PrngReg)

/-- The statistics array in memory is `statsOf` of the flattened argument. -/
theorem st_eq (c : Dev nD) : st m ρ c = statsOf (KBridge.flat (m ((c : Thread nD τ).loc main_arg0))) := by
  refine (W2_arr m ρ c 1).trans ((KStats.final0 (V1 m ρ) c).trans ?_)
  rw [KHost.V1_x]

/-- The result buffer's last contents are the specification's `outK` of the arguments. -/
theorem result_eq (c : Dev nD) :
    W9 m ρ c (Proc.devRef .tc main_v33)
      = Spec.outK (m ((c : Thread nD τ).loc main_arg0)) (m ((c : Thread nD τ).loc main_arg1)) (m ((c : Thread nD τ).loc main_arg2)) := by
  have hmean : ∀ b : Fin 8, V7 m ρ c main_v30 (ix2 b (0 : Fin 1)) = Spec.mu (m ((c : Thread nD τ).loc main_arg0)) b := fun b => by
    rw [KHost.V7_mean, st_eq, KBridge.stats_cnt, KBridge.stats_sm]; rfl
  have hinv : ∀ b : Fin 8, V7 m ρ c main_v31 (ix2 b (0 : Fin 1))
      = FloatOps.hostDivf Spec.one (Spec.den (m ((c : Thread nD τ).loc main_arg0)) b) := fun b => by
    rw [KHost.V7_inv, st_eq, KBridge.stats_cnt, KBridge.stats_sm, KBridge.stats_sq]; rfl
  rw [KHost.W9_out, KNorm.final1 (V7 m ρ) c, KHost.V7_x, KHost.V1_x, KHost.V7_g, KHost.V7_b]
  exact KBridge.unflat_norm _ _ _ _ _ hmean hinv

end Cert.KernelIdeal.KResult

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

theorem algebraic : Cert.algebraic_KernelIdeal_ReferenceIdeal := by
  intro m ρ m' ρ' _ hagree
  refine ⟨fun c => Cert.Spec.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KResult.result_eq m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.ReadP.val_main_v45_eq, Cert.ReferenceIdeal.RefValue.val_eq, (hagree c).1, (hagree c).2.1, (hagree c).2.2,
      Cert.Spec.outK_eq_outR]

end Cert.Proof.Claims

end
-- ==== Proof.lean ====
/-
  Masked per-sample layer normalization over x : [8, 32, 64, 64, 64] with per-channel γ, β : [32]: a tiled two-launch
  program (statistics accumulated over 64 tiles, then the normalization with the reciprocal 1 / (std + ε) taken once per
  sample) against the plain formulation (three whole-array sums, then a quotient by std + ε). Over the extended reals
  the two results are equal entry by entry: the sums differ only in grouping and in where the factor 32 of the count
  is applied, and the product with the reciprocal is the quotient because std + ε is never zero. The pieces are in
  Proof/Spec.lean (what both compute), Proof/SpecLaw.lean (the law between the two forms), Proof/KStats.lean,
  Proof/KHost.lean, Proof/KNorm.lean, Proof/KBridge.lean, Proof/KRun.lean (the tiled program, launch by launch),
  Proof/RefRun.lean, Proof/RefRead.lean, Proof/RefValue.lean (the plain one) and Proof/Claims.lean (the five claims).
-/
import proofs.«143069_j61598420959415_1_alg».proof.Defs
import proofs.«143069_j61598420959415_1_alg».proof.Proof.Gen.Kernel
import proofs.«143069_j61598420959415_1_alg».proof.Proof.Gen.Kernel.Skeleton
import proofs.«143069_j61598420959415_1_alg».proof.Proof.Gen.Kernel.Launch
import proofs.«143069_j61598420959415_1_alg».proof.Proof.Gen.Kernel.Points
import proofs.«143069_j61598420959415_1_alg».proof.Proof.Gen.Kernel.Frame
import proofs.«143069_j61598420959415_1_alg».proof.Proof.Gen.KernelIdeal
import proofs.«143069_j61598420959415_1_alg».proof.Proof.Gen.KernelIdeal.Skeleton
import proofs.«143069_j61598420959415_1_alg».proof.Proof.Gen.KernelIdeal.Launch
import proofs.«143069_j61598420959415_1_alg».proof.Proof.Gen.KernelIdeal.Points
import proofs.«143069_j61598420959415_1_alg».proof.Proof.Gen.KernelIdeal.Frame
import proofs.«143069_j61598420959415_1_alg».proof.Proof.Gen.ReferenceIdeal
import proofs.«143069_j61598420959415_1_alg».proof.Proof.Gen.Pre_finite_inputs
import proofs.«143069_j61598420959415_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
